-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x10x4096 : Shape := ⟨3, ![32, 10, 4096]⟩
abbrev S8192x4096 : Shape := ⟨2, ![8192, 4096]⟩
abbrev S_ : Shape := ⟨0, ![]⟩

class Facts : Prop where
  bcast_S_S32x10x4096 : S_.BroadcastsInDim S32x10x4096 (![] : Fin 0 → Fin S32x10x4096.rank)
  reducesTo_S32x10x4096_S_d0_1_2 : S32x10x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S32x10x4096 .f32) (main_arg1 : FVec F S32x10x4096 .f32) (main_arg2 : FVec F S8192x4096 .f32) : IVec S_ 1 :=
  let main_v0 : FVec F S32x10x4096 .f32 := Host.absf main_arg0
  let main_cst : FVec F S_ .f32 := constant S_ .f32 0x7F800000#32
  let main_v1 : FVec F S32x10x4096 .f32 := broadcastInDim S32x10x4096 ![] bcast_S_S32x10x4096 main_cst
  let main_v2 : IVec S32x10x4096 1 := cmpf .olt main_v0 main_v1
  let main_c : IVec S_ 1 := constantI S_ 1 1#1
  let main_v3 : IVec S_ 1 := (fun x v => Host.reduce IntOp.andi x v reducesTo_S32x10x4096_S_d0_1_2 h_S_) main_v2 main_c
  let main_v4 : FVec F S32x10x4096 .f32 := Host.absf main_arg1
  let main_cst_0 : FVec F S_ .f32 := constant S_ .f32 0x7F800000#32
  let main_v5 : FVec F S32x10x4096 .f32 := broadcastInDim S32x10x4096 ![] bcast_S_S32x10x4096 main_cst_0
  let main_v6 : IVec S32x10x4096 1 := cmpf .olt main_v4 main_v5
  let main_c_1 : IVec S_ 1 := constantI S_ 1 1#1
  let main_v7 : IVec S_ 1 := (fun x v => Host.reduce IntOp.andi x v reducesTo_S32x10x4096_S_d0_1_2 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S32x10x4096 : Shape := ⟨3, ![32, 10, 4096]⟩
abbrev S8192x4096 : Shape := ⟨2, ![8192, 4096]⟩
abbrev S32x1x4096 : Shape := ⟨3, ![32, 1, 4096]⟩
abbrev S32x4096 : Shape := ⟨2, ![32, 4096]⟩
abbrev S320x4096 : Shape := ⟨2, ![320, 4096]⟩
abbrev S672x4096 : Shape := ⟨2, ![672, 4096]⟩
abbrev S672x8192 : Shape := ⟨2, ![672, 8192]⟩
abbrev S512x4096 : Shape := ⟨2, ![512, 4096]⟩
abbrev S672x512 : Shape := ⟨2, ![672, 512]⟩
abbrev S320x8192 : Shape := ⟨2, ![320, 8192]⟩
abbrev S32x10x8192 : Shape := ⟨3, ![32, 10, 8192]⟩
abbrev S32x8192 : Shape := ⟨2, ![32, 8192]⟩
abbrev S32x1x8192 : Shape := ⟨3, ![32, 1, 8192]⟩
abbrev S_ : Shape := ⟨0, ![]⟩
abbrev S32x8192x10 : Shape := ⟨3, ![32, 8192, 10]⟩

abbrev nBuf : Space → Nat
  | .hbm => 32
  | .vmem => 5
  | .smem => 0
  | _ => 0

abbrev bufTy : (tb : Table) → Fin (tcTables nBuf tb) → BufTy
  | .hbm, ⟨0, _⟩ => ⟨S32x10x4096, .f32⟩
  | .hbm, ⟨1, _⟩ => ⟨S32x10x4096, .f32⟩
  | .hbm, ⟨2, _⟩ => ⟨S8192x4096, .f32⟩
  | .hbm, ⟨3, _⟩ => ⟨S32x1x4096, .f32⟩
  | .hbm, ⟨4, _⟩ => ⟨S32x4096, .f32⟩
  | .hbm, ⟨5, _⟩ => ⟨S32x1x4096, .f32⟩
  | .hbm, ⟨6, _⟩ => ⟨S32x10x4096, .f32⟩
  | .hbm, ⟨7, _⟩ => ⟨S32x10x4096, .f32⟩
  | .hbm, ⟨8, _⟩ => ⟨S320x4096, .f32⟩
  | .hbm, ⟨9, _⟩ => ⟨S32x10x4096, .f32⟩
  | .hbm, ⟨10, _⟩ => ⟨S320x4096, .f32⟩
  | .hbm, ⟨11, _⟩ => ⟨S32x4096, .f32⟩
  | .hbm, ⟨12, _⟩ => ⟨S672x4096, .f32⟩
  | .hbm, ⟨13, _⟩ => ⟨S672x4096, .bf16⟩
  | .hbm, ⟨14, _⟩ => ⟨S672x8192, .f32⟩
  | .hbm, ⟨15, _⟩ => ⟨S320x8192, .f32⟩
  | .hbm, ⟨16, _⟩ => ⟨S32x10x8192, .f32⟩
  | .hbm, ⟨17, _⟩ => ⟨S320x8192, .f32⟩
  | .hbm, ⟨18, _⟩ => ⟨S32x10x8192, .f32⟩
  | .hbm, ⟨19, _⟩ => ⟨S32x8192, .f32⟩
  | .hbm, ⟨20, _⟩ => ⟨S32x10x8192, .f32⟩
  | .hbm, ⟨21, _⟩ => ⟨S32x8192, .f32⟩
  | .hbm, ⟨22, _⟩ => ⟨S32x10x8192, .f32⟩
  | .hbm, ⟨23, _⟩ => ⟨S32x1x8192, .f32⟩
  | .hbm, ⟨24, _⟩ => ⟨S32x10x8192, .f32⟩
  | .hbm, ⟨25, _⟩ => ⟨S32x10x8192, .f32⟩
  | .hbm, ⟨26, _⟩ => ⟨S_, .f32⟩
  | .hbm, ⟨27, _⟩ => ⟨S32x10x8192, .f32⟩
  | .hbm, ⟨28, _⟩ => ⟨S32x10x8192, .f32⟩
  | .hbm, ⟨29, _⟩ => ⟨S32x10x8192, .f32⟩
  | .hbm, ⟨30, _⟩ => ⟨S32x8192x10, .f32⟩
  | .hbm, ⟨31, _⟩ => ⟨S32x10x8192, .f32⟩
  | .local _ .vmem, ⟨0, _⟩ => ⟨S672x4096, .bf16⟩
  | .local _ .vmem, ⟨1, _⟩ => ⟨S512x4096, .f32⟩
  | .local _ .vmem, ⟨2, _⟩ => ⟨S512x4096, .f32⟩
  | .local _ .vmem, ⟨3, _⟩ => ⟨S672x512, .f32⟩
  | .local _ .vmem, ⟨4, _⟩ => ⟨S672x512, .f32⟩
  | _, _ => ⟨S32x10x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S672x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S672x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S32x10x4096_S32x1x4096_0_9_0 : S32x10x4096.Slices ![0, 9, 0] S32x1x4096
  shapeCasts_S32x1x4096_S32x4096 : S32x1x4096.ShapeCasts S32x4096
  bcast_S32x4096_S32x1x4096_0_2 : S32x4096.BroadcastsInDim S32x1x4096 (![0, 2] : Fin 2 → Fin S32x1x4096.rank)
  bcast_S32x1x4096_S32x10x4096_0_1_2 : S32x1x4096.BroadcastsInDim S32x10x4096 (![0, 1, 2] : Fin 3 → Fin S32x10x4096.rank)
  shapeCasts_S32x10x4096_S320x4096 : S32x10x4096.ShapeCasts S320x4096
  concatenates_S320x4096_S320x4096_S32x4096_S672x4096_d0 : Shape.Concatenates [S320x4096, S320x4096, S32x4096] S672x4096 0
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S672x4096_S672x4096_0_0 : ∀ a, (![0, 0] : Fin 2 → Nat) a + S672x4096.size a ≤ S672x4096.size a
  h_S672x4096 : 0 < S672x4096.numel
  shapeCasts_S672x4096_S672x4096 : S672x4096.ShapeCasts S672x4096
  inb_S672x512_S672x512_0_0 : ∀ a, (![0, 0] : Fin 2 → Nat) a + S672x512.size a ≤ S672x512.size a
  h_S672x512 : 0 < S672x512.numel
  slices_S672x8192_S320x8192_0_0 : S672x8192.Slices ![0, 0] S320x8192
  shapeCasts_S320x8192_S32x10x8192 : S320x8192.ShapeCasts S32x10x8192
  slices_S672x8192_S320x8192_320_0 : S672x8192.Slices ![320, 0] S320x8192
  slices_S672x8192_S32x8192_640_0 : S672x8192.Slices ![640, 0] S32x8192
  bcast_S32x8192_S32x1x8192_0_2 : S32x8192.BroadcastsInDim S32x1x8192 (![0, 2] : Fin 2 → Fin S32x1x8192.rank)
  bcast_S32x1x8192_S32x10x8192_0_1_2 : S32x1x8192.BroadcastsInDim S32x10x8192 (![0, 1, 2] : Fin 3 → Fin S32x10x8192.rank)
  bcast_S_S32x10x8192 : S_.BroadcastsInDim S32x10x8192 (![] : Fin 0 → Fin S32x10x8192.rank)
  transposes_S32x10x8192_S32x8192x10_0_2_1 : S32x10x8192.Transposes [0, 2, 1] S32x8192x10
  shapeCasts_S32x8192x10_S32x10x8192 : S32x8192x10.ShapeCasts S32x10x8192
  dot_S672x4096_S512x4096_S672x512_1_1_0_0_n_n_wf : DotDims.WF S672x4096 S512x4096 S672x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S672x4096.size a ≤ S672x4096.size a
  hwx0_0 : ∀ i : grid0.Coords, EltTy.bits .bf16 = 32 ∨ (Rect.block (s := S672x4096) S672x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S672x512.size a ≤ S672x8192.size a
  hwx0_2 : ∀ i : grid0.Coords, EltTy.bits .f32 = 32 ∨ (Rect.block (s := S672x8192) S672x512.size (cc0_transform_2 i) (hinb0_2 i)).WholeWords (EltTy.packing .f32)

variable [Facts₀]

def dot_S672x4096_S512x4096_S672x512_1_1_0_0_n_n : DotDims S672x4096 S512x4096 S672x512 where
  lhsContracting := [1]
  rhsContracting := [1]
  lhsNonContracting := [0]
  rhsNonContracting := [0]
  lhsBatch := []
  rhsBatch := []
  wf := dot_S672x4096_S512x4096_S672x512_1_1_0_0_n_n_wf

abbrev win0_0 : Pipeline.Window sig grid0 :=
  Pipeline.Window.ofSpec (Memref.whole main_v10) S672x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S672x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x10x4096 : Shape := ⟨3, ![32, 10, 4096]⟩
abbrev S8192x4096 : Shape := ⟨2, ![8192, 4096]⟩
abbrev S32x1x4096 : Shape := ⟨3, ![32, 1, 4096]⟩
abbrev S32x4096 : Shape := ⟨2, ![32, 4096]⟩
abbrev S8192x32x10 : Shape := ⟨3, ![8192, 32, 10]⟩
abbrev S32x8192x10 : Shape := ⟨3, ![32, 8192, 10]⟩
abbrev S32x8192 : Shape := ⟨2, ![32, 8192]⟩
abbrev S32x8192x1 : Shape := ⟨3, ![32, 8192, 1]⟩
abbrev S_ : Shape := ⟨0, ![]⟩
abbrev S32x10x8192 : Shape := ⟨3, ![32, 10, 8192]⟩

abbrev nBuf : Space → Nat
  | .hbm => 27
  | .vmem => 0
  | .smem => 0
  | _ => 0

abbrev bufTy : (tb : Table) → Fin (tcTables nBuf tb) → BufTy
  | .hbm, ⟨0, _⟩ => ⟨S32x10x4096, .f32⟩
  | .hbm, ⟨1, _⟩ => ⟨S32x10x4096, .f32⟩
  | .hbm, ⟨2, _⟩ => ⟨S8192x4096, .f32⟩
  | .hbm, ⟨3, _⟩ => ⟨S8192x4096, .f32⟩
  | .hbm, ⟨4, _⟩ => ⟨S32x1x4096, .f32⟩
  | .hbm, ⟨5, _⟩ => ⟨S32x4096, .f32⟩
  | .hbm, ⟨6, _⟩ => ⟨S32x1x4096, .f32⟩
  | .hbm, ⟨7, _⟩ => ⟨S32x10x4096, .f32⟩
  | .hbm, ⟨8, _⟩ => ⟨S32x10x4096, .f32⟩
  | .hbm, ⟨9, _⟩ => ⟨S8192x32x10, .f32⟩
  | .hbm, ⟨10, _⟩ => ⟨S32x8192x10, .f32⟩
  | .hbm, ⟨11, _⟩ => ⟨S32x10x4096, .f32⟩
  | .hbm, ⟨12, _⟩ => ⟨S8192x32x10, .f32⟩
  | .hbm, ⟨13, _⟩ => ⟨S32x8192x10, .f32⟩
  | .hbm, ⟨14, _⟩ => ⟨S32x8192x10, .f32⟩
  | .hbm, ⟨15, _⟩ => ⟨S32x4096, .f32⟩
  | .hbm, ⟨16, _⟩ => ⟨S32x8192, .f32⟩
  | .hbm, ⟨17, _⟩ => ⟨S32x8192, .f32⟩
  | .hbm, ⟨18, _⟩ => ⟨S32x8192x10, .f32⟩
  | .hbm, ⟨19, _⟩ => ⟨S32x8192x1, .f32⟩
  | .hbm, ⟨20, _⟩ => ⟨S32x8192x10, .f32⟩
  | .hbm, ⟨21, _⟩ => ⟨S32x8192x10, .f32⟩
  | .hbm, ⟨22, _⟩ => ⟨S_, .f32⟩
  | .hbm, ⟨23, _⟩ => ⟨S32x8192x10, .f32⟩
  | .hbm, ⟨24, _⟩ => ⟨S32x8192x10, .f32⟩
  | .hbm, ⟨25, _⟩ => ⟨S32x8192x10, .f32⟩
  | .hbm, ⟨26, _⟩ => ⟨S32x10x8192, .f32⟩
  | _, _ => ⟨S32x10x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]

class Facts₀ : Prop where
  slices_S32x10x4096_S32x1x4096_0_9_0 : S32x10x4096.Slices ![0, 9, 0] S32x1x4096
  shapeCasts_S32x1x4096_S32x4096 : S32x1x4096.ShapeCasts S32x4096
  bcast_S32x4096_S32x1x4096_0_2 : S32x4096.BroadcastsInDim S32x1x4096 (![0, 2] : Fin 2 → Fin S32x1x4096.rank)
  bcast_S32x1x4096_S32x10x4096_0_1_2 : S32x1x4096.BroadcastsInDim S32x10x4096 (![0, 1, 2] : Fin 3 → Fin S32x10x4096.rank)
  transposes_S8192x32x10_S32x8192x10_1_0_2 : S8192x32x10.Transposes [1, 0, 2] S32x8192x10
  bcast_S32x8192_S32x8192x1_0_1 : S32x8192.BroadcastsInDim S32x8192x1 (![0, 1] : Fin 2 → Fin S32x8192x1.rank)
  bcast_S32x8192x1_S32x8192x10_0_1_2 : S32x8192x1.BroadcastsInDim S32x8192x10 (![0, 1, 2] : Fin 3 → Fin S32x8192x10.rank)
  bcast_S_S32x8192x10 : S_.BroadcastsInDim S32x8192x10 (![] : Fin 0 → Fin S32x8192x10.rank)
  shapeCasts_S32x8192x10_S32x10x8192 : S32x8192x10.ShapeCasts S32x10x8192
  dot_S8192x4096_S32x10x4096_S8192x32x10_1_2_0_01_n_n_wf : DotDims.WF S8192x4096 S32x10x4096 S8192x32x10 [1] [2] [0] [0, 1] [] []
  dot_S32x4096_S8192x4096_S32x8192_1_1_0_0_n_n_wf : DotDims.WF S32x4096 S8192x4096 S32x8192 [1] [1] [0] [0] [] []

variable [Facts₀]

def dot_S8192x4096_S32x10x4096_S8192x32x10_1_2_0_01_n_n : DotDims S8192x4096 S32x10x4096 S8192x32x10 where
  lhsContracting := [1]
  rhsContracting := [2]
  lhsNonContracting := [0]
  rhsNonContracting := [0, 1]
  lhsBatch := []
  rhsBatch := []
  wf := dot_S8192x4096_S32x10x4096_S8192x32x10_1_2_0_01_n_n_wf
def dot_S32x4096_S8192x4096_S32x8192_1_1_0_0_n_n : DotDims S32x4096 S8192x4096 S32x8192 where
  lhsContracting := [1]
  rhsContracting := [1]
  lhsNonContracting := [0]
  rhsNonContracting := [0]
  lhsBatch := []
  rhsBatch := []
  wf := dot_S32x4096_S8192x4096_S32x8192_1_1_0_0_n_n_wf

class Facts : Prop extends Facts₀ where

variable [Facts]
-- ==== Proof.BitsAround.lean ====
/-
  The program around its one matmul region: what the arrays hold when the region is entered, that the
  operations after the region touch nothing the region stages, and that the three arguments
  p, q, W are written by no operation of the program. Stated at any float instance.

  The program first builds, from p and the last sequence step of q, the stacked left operand
  [ p * q_last ; p * p ; q_last * q_last ] of shape [672, 4096] (a concatenation along rows),
  then one region multiplies it against the squared rows of W, sixteen column blocks of 512,
  and the operations after the region cut the [672, 8192] product back into its three parts.
-/
import proofs.«128800_j48481590837593_1_alg».proof.Proof.Gen.Kernel.Launch
import proofs.«128800_j48481590837593_1_alg».proof.Proof.Gen.Kernel.Skeleton
import proofs.«128800_j48481590837593_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The arrays when the region is entered -/

/-- Every buffer of core `c` after the eleven operations that build the stacked left operand. -/
abbrev atEntry (c : Dev nD) : Valuation τ sig (Elt F) := StableHlo.after (List.flatten [hostOps0]) (fun b => m (c, b))
/-- The same, read at one array. -/
abbrev arrEntry (c : Dev nD) (b : Ref sig .tc) : Buf (Elt F) ((c : Thread nD τ).loc b) := atEntry m c (Proc.devRef .tc b)

/-- The operations before the region allocate no buffer, and neither do those after it. -/
theorem before_allocs : (hostOps0 : List (HloOp τ sig (Elt F))).Forall fun op => op.fresh = ∅ := by
  simp only [List.Forall]; repeat' constructor
theorem after_allocs : (hostOps1 : List (HloOp τ sig (Elt F))).Forall fun op => op.fresh = ∅ := by
  simp only [List.Forall]; repeat' constructor

/-- The program is: the operations before the region, the region, the operations after it. -/
theorem main_around (𝒱₀ : Variants) :
    Pipeline.HMainK (Ix := Unit) (Name := ℕ) (U := UR sig nD τ) (Lvl := ℕ) cfgs 0 defs₀ 𝒱₀ m (main (F := F)) (arrEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_allocs) main_chain

/-! ## The operations after the region -/

/-- They touch only unscoped buffers of the core. -/
theorem after_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem after_allocs' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_allocs) op hop

/-- None writes the stacked operand, W, or the product: each writes its own result only. -/
theorem after_keeps : ∀ ops ∈ ([hostOps1] : List (List (HloOp τ sig (Elt F)))), ∀ op ∈ ops,
    ∀ w, Proc.devRef .tc (Pipeline.arrRef spec0 w) ∉ op.writes := by
  intro ops hops
  simp only [List.mem_cons, List.mem_nil_iff, or_false] at hops
  subst hops
  refine List.forall_iff_forall_mem.mp ?_
  simp only [hostOps1, List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-! ## The arguments are written by nothing -/

section Kept
variable (r : Ref sig .tc)

/-- No operation before the region writes `r`, given that `r` is none of their eleven results. -/
theorem entry_of_not_written (c : Dev nD)
    (h : (hostOps0 : List (HloOp τ sig (Elt F))).Forall fun op => Proc.devRef .tc r ∉ op.writes) :
    arrEntry m c r = m ((c : Thread nD τ).loc r) :=
  StableHlo.after_of_forall_not_mem (b := Proc.devRef .tc r) _ _ (List.forall_iff_forall_mem.mp (by
    simpa only [List.flatten_cons, List.flatten_nil, List.append_nil] using h))
end Kept

theorem before_keeps_p : (hostOps0 : List (HloOp τ sig (Elt F))).Forall fun op => Proc.devRef .tc main_arg0 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)
theorem before_keeps_q : (hostOps0 : List (HloOp τ sig (Elt F))).Forall fun op => Proc.devRef .tc main_arg1 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)
theorem before_keeps_W : (hostOps0 : List (HloOp τ sig (Elt F))).Forall fun op => Proc.devRef .tc main_arg2 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)

theorem entry_p (c : Dev nD) : arrEntry m c main_arg0 = m ((c : Thread nD τ).loc main_arg0) :=
  entry_of_not_written m main_arg0 c before_keeps_p
theorem entry_q (c : Dev nD) : arrEntry m c main_arg1 = m ((c : Thread nD τ).loc main_arg1) :=
  entry_of_not_written m main_arg1 c before_keeps_q
theorem entry_W (c : Dev nD) : arrEntry m c main_arg2 = m ((c : Thread nD τ).loc main_arg2) :=
  entry_of_not_written m main_arg2 c before_keeps_W

theorem after_keeps_p : (hostOps1 : List (HloOp τ sig (Elt F))).Forall fun op => Proc.devRef .tc main_arg0 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)
theorem after_keeps_q : (hostOps1 : List (HloOp τ sig (Elt F))).Forall fun op => Proc.devRef .tc main_arg1 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

/-- p and q are staged by no window and written by no operation: after the whole program they are as launched. -/
theorem end_p (dats : (p : Fin 1) → (c : Dev nD) → Dat τ (Elt F) Unit ℕ (UR sig nD τ) ℕ (cfgs p) c) (c : Dev nD) :
    Pipeline.afterTail₀ cfgs dats 0 (atEntry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simpa only [List.flatten_cons, List.flatten_nil, List.append_nil] using after_keeps_p)),
    Pipeline.withArrays_of_ne _ c (atEntry m c) _ main_arg0 (by exact (by decide : ∀ w, Pipeline.arrRef spec0 w ≠ main_arg0))]
  exact entry_p m c
theorem end_q (dats : (p : Fin 1) → (c : Dev nD) → Dat τ (Elt F) Unit ℕ (UR sig nD τ) ℕ (cfgs p) c) (c : Dev nD) :
    Pipeline.afterTail₀ cfgs dats 0 (atEntry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simpa only [List.flatten_cons, List.flatten_nil, List.append_nil] using after_keeps_q)),
    Pipeline.withArrays_of_ne _ c (atEntry m c) _ main_arg1 (by exact (by decide : ∀ w, Pipeline.arrRef spec0 w ≠ main_arg1))]
  exact entry_q m c

end Cert.Kernel.Region

end
-- ==== Proof.BitsBody.lean ====
/-
  One call of the kernel body, at any float instance.

  The body reads a block of 512 rows of W and the whole stacked left operand, forms the
  [672, 512] block of products  sum over d of  a[i, d] * (w[j, d] * w[j, d])  in one matrix
  multiplication into a zero accumulator, and stores it over the whole output buffer. It also
  loads the output buffer before the store; that value is used by nothing, so the buffer may
  hold anything when the body starts.
-/
import proofs.«128800_j48481590837593_1_alg».proof.Proof.Gen.Kernel.Launch
import proofs.«128800_j48481590837593_1_alg».proof.Proof.Gen.Kernel.Skeleton
import proofs.«128800_j48481590837593_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three accesses: each is its buffer whole -/

abbrev allOfLeft : Rect S672x4096 := Rect.unit (s := S672x4096) ![0, 0] S672x4096.size inb_S672x4096_S672x4096_0_0
abbrev allOfRows : Rect S512x4096 := Rect.unit (s := S512x4096) ![0, 0] S512x4096.size inb_S512x4096_S512x4096_0_0
abbrev allOfOut : Rect S672x512 := Rect.unit (s := S672x512) ![0, 0] S672x512.size inb_S672x512_S672x512_0_0

/-- What the body leaves in the output buffer, from the stacked operand `a` and the 512 rows `w` of W it
    was handed: its one store, over the whole buffer, of the product block. -/
def productBlock (a : Vec F S672x4096 .bf16) (w : Vec F S512x4096 .f32) : Vec F S672x512 .f32 :=
  View.canon [⟨allOfOut, k0_pay1 (View.ld w allOfRows) (View.ld a allOfLeft)⟩]

/-- The one store covers the buffer. -/
theorem store_covers (p0 : Vec F S672x512 .f32) (y : S672x512.Idx) :
    ∃ pc ∈ ([⟨allOfOut, p0⟩] : List (View.Piece (Elt F) S672x512 .f32)), y ∈ pc.1.set :=
  View.cover_of_tiled [⟨allOfOut, p0⟩] S672x512.size (by rfl) y

set_option maxHeartbeats 1000000 in
/-- The body, given the stacked operand's buffer at `a`, the row block's at `w` and the output's at anything,
    runs to its end leaving the two inputs as they were and the output at `productBlock a w`. -/
theorem body_runs (c : Dev nD) (E : Set ℕ) (i : grid0.Coords)
    (arg1 : Memref sig .tc .vmem S672x4096 .bf16) (harg1 : arg1.IsWhole)
    (arg2 : Memref sig .tc .vmem S512x4096 .f32) (harg2 : arg2.IsWhole)
    (arg3 : Memref sig .tc .vmem S672x512 .f32) (harg3 : arg3.IsWhole)
    (a : Vec F S672x4096 .bf16) (w : Vec F S512x4096 .f32) (K : PUnit → sProp 𝕄) :
    iprop(owns (c : Thread nD τ) arg1 fullShare a ∗ owns (c : Thread nD τ) arg2 fullShare w
        ∗ (∃ d, owns (c : Thread nD τ) arg3 fullShare d)
        ∗ (iprop(owns (c : Thread nD τ) arg1 fullShare a ∗ owns (c : Thread nD τ) arg2 fullShare w
            ∗ owns (c : Thread nD τ) arg3 fullShare (productBlock a w)) -∗ K ⟨⟩))
      ⊢ wp frame (wpE (defs₀ (F := F)) Variants.none c none) E (cc0__mpl_kernel i arg1 harg1 arg2 harg2 arg3 harg3) K := by
  simp only [cc0__mpl_kernel_eq_skeleton]; unfold cc0__mpl_kernel_skel
  unfold owns
  iintro ⟨⟨%fa, %hfa, Ha⟩, ⟨%fw, %hfw, Hw⟩, ⟨%d, %fd, -, Hd⟩, Hk⟩
  subst hfa; subst hfw
  sl_exec
  sl_step
  iapply Hk
  isplitl [Ha]
  · iexists fa; isplitr; · ipureintro; rfl
    iexact Ha
  isplitl [Hw]
  · iexists fw; isplitr; · ipureintro; rfl
    iexact Hw
  iexists _; isplitr
  swap; · iexact Hd
  ipureintro
  exact View.read_writes_eq_canon _ _ _ (store_covers _)

end Cert.Kernel.Region

end
-- ==== Proof.BitsRun.lean ====
/-
  The region's run and the program's frame, at any float instance.

  At grid point t (of sixteen) the region stages the whole stacked left operand (fetched once, at
  the first point, and found again at every later one), rows 512 t .. 512 t + 511 of W, and writes
  back columns 512 t .. 512 t + 511 of the [672, 8192] product. The body's triple gives what the
  output buffer holds after each point; the library's run of the region around the operations
  before and after it then says that every execution ends, faults nowhere, leaves the product array
  at the sixteen blocks written back, and every array no window stages at what the operations after
  the region compute. p and q are such arrays and no operation writes them; W is a staged input,
  which the region only reads.
-/
import proofs.«128800_j48481590837593_1_alg».proof.Proof.BitsAround
import proofs.«128800_j48481590837593_1_alg».proof.Proof.BitsBody

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window stages -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (arrEntry m c (Pipeline.arrRef spec0 w))

/-- The proof data of the region on core `c`: the arrays as the region finds them; after the body at point `t`
    the two input buffers still at their blocks and the output buffer at the product block of them; the
    scoped rest and the generator register untouched; nothing owed; full shares. -/
def dats (_ : Fin 1) (c : Dev nD) : Dat τ (Elt F) Unit ℕ (UR sig nD τ) ℕ cfg0 c where
  A w := arrEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem entry_eq (c : Dev nD) (w : Fin cfg0.W) : (dats m 0 c).A w = arrEntry m c (Pipeline.arrRef spec0 w) := by
  dsimp only [dats]

theorem left_after (c : Dev nD) (t : Fin cfg0.N) : (dats m 0 c).after 0 t = blockAt m c 0 t := by dsimp only [dats]
theorem rows_after (c : Dev nD) (t : Fin cfg0.N) : (dats m 0 c).after 1 t = blockAt m c 1 t := by dsimp only [dats]
theorem out_after (c : Dev nD) (t : Fin cfg0.N) :
    (dats m 0 c).after 2 t = productBlock (blockAt m c 0 t) (blockAt m c 1 t) := by dsimp only [dats]

/-- The stacked operand's buffer holds the operand at every point: fetched at the first, and left in place by
    the body at each. -/
theorem left_found (c : Dev nD) (t : Fin cfg0.N) (d) : (dats m 0 c).before 0 t d = blockAt m c 0 t :=
  ((dats m 0 c).before_in_eq_fetched 0 rfl (fun _ => rfl) (fun _ _ _ => rfl)
      (fun t => by rw [left_after]; unfold Dat.blockOf blockAt; rw [entry_eq]; try rfl) t d).trans
    (by unfold Dat.fetched Dat.blockOf blockAt; rw [entry_eq]; try rfl)

/-- The row block's buffer holds rows 512 t .. of W at point t (fetched at every point). -/
theorem rows_found (c : Dev nD) (t : Fin cfg0.N) (d) : (dats m 0 c).before 1 t d = blockAt m c 1 t :=
  ((dats m 0 c).before_in_eq_fetched 1 rfl (fun _ => rfl) (fun _ _ _ => rfl)
      (fun t => by rw [rows_after]; unfold Dat.blockOf blockAt; rw [entry_eq]; try rfl) t d).trans
    (by unfold Dat.fetched Dat.blockOf blockAt; rw [entry_eq]; try rfl)

/-! ## The body at a point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def handedBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, the output buffer holds something; the
    invariant and the core's debts pass through unread. -/
theorem body_at (c : Dev nD) (t : Fin cfg0.N) :
    handed m c t ⊢ wp frame (wpE (defs₀ (F := F)) Variants.none c none) Set.univ (bodyAt0 t) (fun _ => handedBack m c t) := by
  unfold handed handedBack bodyAt0
  simp only [left_found, rows_found]
  rw [show (dats m 0 c).Φ t.succ = (dats m 0 c).Φ t.castSucc from rfl,
    show (dats m 0 c).owesAt () t.succ = (dats m 0 c).owesAt () t.castSucc from rfl,
    left_after, rows_after, out_after]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation for the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program ends without a fault; the
    three staged arrays end at what the proof data computes (the product array at the blocks written back), and
    every other unscoped array at what the operations after the region leave. -/
theorem run_main : θ_run defs (onTc (τ := τ) (main (F := F))) (s₀ m ρ)
    (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := after_within) (hfresh := after_allocs')
    (hkeep := after_keeps) (hmain := main_around m Variants.none) (hA := entry_eq m) (hΦ := fun _ _ => rfl)

/-- The frame: every execution ends, nothing faults, and p, q and W end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (end_p m (dats m) c),
     ((h c).2 main_arg1 (Pipeline.mem_restRefs_of main_arg1 (by decide) (by decide))).trans (end_q m (dats m) c),
     ((h c).1 1).trans ((((dats m 0 c).arrAt_in 1 rfl _).trans (entry_eq m c 1)).trans (entry_W m c))⟩) (run_main m ρ)

end Cert.Kernel.Region

end
-- ==== Proof.Around.lean ====
/-
  The program around its one matmul region: what the arrays hold when the region is entered, that the
  operations after the region touch nothing the region stages, and that the three arguments
  p, q, W are written by no operation of the program. Stated at any float instance.

  The program first builds, from p and the last sequence step of q, the stacked left operand
  [ p * q_last ; p * p ; q_last * q_last ] of shape [672, 4096] (a concatenation along rows),
  then one region multiplies it against the squared rows of W, sixteen column blocks of 512,
  and the operations after the region cut the [672, 8192] product back into its three parts.
-/
import proofs.«128800_j48481590837593_1_alg».proof.Proof.Gen.KernelIdeal.Launch
import proofs.«128800_j48481590837593_1_alg».proof.Proof.Gen.KernelIdeal.Skeleton
import proofs.«128800_j48481590837593_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arrays when the region is entered -/

/-- Every buffer of core `c` after the eleven operations that build the stacked left operand. -/
abbrev atEntry (c : Dev nD) : Valuation τ sig (Elt F) := StableHlo.after (List.flatten [hostOps0]) (fun b => m (c, b))
/-- The same, read at one array. -/
abbrev arrEntry (c : Dev nD) (b : Ref sig .tc) : Buf (Elt F) ((c : Thread nD τ).loc b) := atEntry m c (Proc.devRef .tc b)

/-- The operations before the region allocate no buffer, and neither do those after it. -/
theorem before_allocs : (hostOps0 : List (HloOp τ sig (Elt F))).Forall fun op => op.fresh = ∅ := by
  simp only [List.Forall]; repeat' constructor
theorem after_allocs : (hostOps1 : List (HloOp τ sig (Elt F))).Forall fun op => op.fresh = ∅ := by
  simp only [List.Forall]; repeat' constructor

/-- The program is: the operations before the region, the region, the operations after it. -/
theorem main_around (𝒱₀ : Variants) :
    Pipeline.HMainK (Ix := Unit) (Name := ℕ) (U := UR sig nD τ) (Lvl := ℕ) cfgs 0 defs₀ 𝒱₀ m (main (F := F)) (arrEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_allocs) main_chain

/-! ## The operations after the region -/

/-- They touch only unscoped buffers of the core. -/
theorem after_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem after_allocs' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_allocs) op hop

/-- None writes the stacked operand, W, or the product: each writes its own result only. -/
theorem after_keeps : ∀ ops ∈ ([hostOps1] : List (List (HloOp τ sig (Elt F)))), ∀ op ∈ ops,
    ∀ w, Proc.devRef .tc (Pipeline.arrRef spec0 w) ∉ op.writes := by
  intro ops hops
  simp only [List.mem_cons, List.mem_nil_iff, or_false] at hops
  subst hops
  refine List.forall_iff_forall_mem.mp ?_
  simp only [hostOps1, List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-! ## The arguments are written by nothing -/

section Kept
variable (r : Ref sig .tc)

/-- No operation before the region writes `r`, given that `r` is none of their eleven results. -/
theorem entry_of_not_written (c : Dev nD)
    (h : (hostOps0 : List (HloOp τ sig (Elt F))).Forall fun op => Proc.devRef .tc r ∉ op.writes) :
    arrEntry m c r = m ((c : Thread nD τ).loc r) :=
  StableHlo.after_of_forall_not_mem (b := Proc.devRef .tc r) _ _ (List.forall_iff_forall_mem.mp (by
    simpa only [List.flatten_cons, List.flatten_nil, List.append_nil] using h))
end Kept

theorem before_keeps_p : (hostOps0 : List (HloOp τ sig (Elt F))).Forall fun op => Proc.devRef .tc main_arg0 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)
theorem before_keeps_q : (hostOps0 : List (HloOp τ sig (Elt F))).Forall fun op => Proc.devRef .tc main_arg1 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)
theorem before_keeps_W : (hostOps0 : List (HloOp τ sig (Elt F))).Forall fun op => Proc.devRef .tc main_arg2 ∉ op.writes := by
  simp only [hostOps0, List.Forall, StableHlo.unary_writes, StableHlo.binary_writes, StableHlo.reshape_writes,
    StableHlo.nary_writes, Finset.mem_singleton]
  repeat' apply And.intro
  all_goals exact StableHlo.devRef_ne_of_ne (by decide)

theorem entry_p (c : Dev nD) : arrEntry m c main_arg0 = m ((c : Thread nD τ).loc main_arg0) :=
  entry_of_not_written m main_arg0 c before_keeps_p
theorem entry_q (c : Dev nD) : arrEntry m c main_arg1 = m ((c : Thread nD τ).loc main_arg1) :=
  entry_of_not_written m main_arg1 c before_keeps_q
theorem entry_W (c : Dev nD) : arrEntry m c main_arg2 = m ((c : Thread nD τ).loc main_arg2) :=
  entry_of_not_written m main_arg2 c before_keeps_W

theorem after_keeps_p : (hostOps1 : List (HloOp τ sig (Elt F))).Forall fun op => Proc.devRef .tc main_arg0 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)
theorem after_keeps_q : (hostOps1 : List (HloOp τ sig (Elt F))).Forall fun op => Proc.devRef .tc main_arg1 ∉ op.writes := by
  simp only [hostOps1, List.Forall, StableHlo.nullary_writes, StableHlo.unary_writes, StableHlo.binary_writes,
    StableHlo.reshape_writes, Finset.mem_singleton]
  repeat' apply And.intro
  all_goals exact StableHlo.devRef_ne_of_ne (by decide)

/-- p and q are staged by no window and written by no operation: after the whole program they are as launched. -/
theorem end_p (dats : (p : Fin 1) → (c : Dev nD) → Dat τ (Elt F) Unit ℕ (UR sig nD τ) ℕ (cfgs p) c) (c : Dev nD) :
    Pipeline.afterTail₀ cfgs dats 0 (atEntry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simpa only [List.flatten_cons, List.flatten_nil, List.append_nil] using after_keeps_p)),
    Pipeline.withArrays_of_ne _ c (atEntry m c) _ main_arg0 (by exact (by decide : ∀ w, Pipeline.arrRef spec0 w ≠ main_arg0))]
  exact entry_p m c
theorem end_q (dats : (p : Fin 1) → (c : Dev nD) → Dat τ (Elt F) Unit ℕ (UR sig nD τ) ℕ (cfgs p) c) (c : Dev nD) :
    Pipeline.afterTail₀ cfgs dats 0 (atEntry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simpa only [List.flatten_cons, List.flatten_nil, List.append_nil] using after_keeps_q)),
    Pipeline.withArrays_of_ne _ c (atEntry m c) _ main_arg1 (by exact (by decide : ∀ w, Pipeline.arrRef spec0 w ≠ main_arg1))]
  exact entry_q m c

end Cert.KernelIdeal.Region

end
-- ==== Proof.Spec.lean ====
/-
  What both programs compute, index by index over the extended reals.

  For batch b, perspective k and sequence step s, with q_last = q[b, 9, :]:
    dot   = sum_d (p[b,s,d] * q_last[d]) * (W[k,d] * W[k,d])
    normP = sum_d (p[b,s,d] * p[b,s,d])  * (W[k,d] * W[k,d])
    normQ = sum_d (q_last[d] * q_last[d]) * (W[k,d] * W[k,d])
    dist[b,k,s] = (-dot) / ((sqrt normP * sqrt normQ) * 4096)
  and the result is `dist`, of shape [32, 8192, 10], re-read row-major as [32, 10, 8192].

  The kernel gets the three sums as rows of ONE product: the left operands are stacked into 672 rows
  (320 rows p*q_last, 320 rows p*p, 32 rows q_last*q_last) and multiplied against the squared rows of W.
-/
import Idealize.ShloMosaic.PureOps.Ideal
import Idealize.ShloMosaic.Lib.ValueIdx

noncomputable section

open scoped BigOperators

namespace Cert.Spec

open Idealize.ShloMosaic Idealize.ShloMosaic.ValueIdx

/-- p and q: [batch, step, feature]. -/
abbrev Seq : Shape := ⟨3, ![32, 10, 4096]⟩
/-- W: [perspective, feature]. -/
abbrev Wt : Shape := ⟨2, ![8192, 4096]⟩
/-- The stacked left operand: [row, feature]. -/
abbrev Stack : Shape := ⟨2, ![672, 4096]⟩
/-- The product: [row, perspective]. -/
abbrev Prod : Shape := ⟨2, ![672, 8192]⟩
/-- The distances before the final re-reading: [batch, perspective, step]. -/
abbrev Dist : Shape := ⟨3, ![32, 8192, 10]⟩

/-- Row of the stacked operand holding p[b,s,:] * q_last[b,:]. -/
def rowTop (b : Fin 32) (s : Fin 10) : Fin 672 := ⟨10 * b.val + s.val, by omega⟩
/-- Row holding p[b,s,:] * p[b,s,:]. -/
def rowMid (b : Fin 32) (s : Fin 10) : Fin 672 := ⟨320 + (10 * b.val + s.val), by omega⟩
/-- Row holding q_last[b,:] * q_last[b,:]. -/
def rowBot (b : Fin 32) : Fin 672 := ⟨640 + b.val, by omega⟩

/-- One entry of the product of a stacked operand `a` against the squared rows of `w`. -/
def productAt (a : Stack.Idx → EReal) (w : Wt.Idx → EReal) (r : Fin 672) (k : Fin 8192) : EReal :=
  ∑ d : Fin 4096, a (ix2 r d) * (w (ix2 k d) * w (ix2 k d))

/-- The whole product array. -/
def product (a : Stack.Idx → EReal) (w : Wt.Idx → EReal) : Prod.Idx → EReal :=
  fun i => productAt a w ⟨(i 0).val, idx2_lt0 i⟩ ⟨(i 1).val, idx2_lt1 i⟩

theorem product_ix2 (a : Stack.Idx → EReal) (w : Wt.Idx → EReal) (r : Fin 672) (k : Fin 8192) :
    product a w (ix2 r k) = productAt a w r k := rfl

/-- The weighted inner product of p[b,s,:] with q_last[b,:]. -/
def dotPQ (p q : Seq.Idx → EReal) (w : Wt.Idx → EReal) (b : Fin 32) (k : Fin 8192) (s : Fin 10) : EReal :=
  ∑ d : Fin 4096, (p (ix3 b s d) * q (ix3 b 9 d)) * (w (ix2 k d) * w (ix2 k d))
/-- The weighted squared norm of p[b,s,:]. -/
def sqP (p : Seq.Idx → EReal) (w : Wt.Idx → EReal) (b : Fin 32) (k : Fin 8192) (s : Fin 10) : EReal :=
  ∑ d : Fin 4096, (p (ix3 b s d) * p (ix3 b s d)) * (w (ix2 k d) * w (ix2 k d))
/-- The weighted squared norm of q_last[b,:]. -/
def sqQ (q : Seq.Idx → EReal) (w : Wt.Idx → EReal) (b : Fin 32) (k : Fin 8192) : EReal :=
  ∑ d : Fin 4096, (q (ix3 b 9 d) * q (ix3 b 9 d)) * (w (ix2 k d) * w (ix2 k d))

/-- The distance from the three sums, in the programs' order of operations. -/
def distOf (dot nP nQ : EReal) : EReal :=
  Ideal.div (-dot) ((Ideal.sqrt nP * Ideal.sqrt nQ) * Ideal.ofBits .f32 0x45800000#32)

/-- One distance. -/
def distAt (p q : Seq.Idx → EReal) (w : Wt.Idx → EReal) (b : Fin 32) (k : Fin 8192) (s : Fin 10) : EReal :=
  distOf (dotPQ p q w b k s) (sqP p w b k s) (sqQ q w b k)

/-- The distance array [batch, perspective, step]. -/
def dist (p q : Seq.Idx → EReal) (w : Wt.Idx → EReal) : Dist.Idx → EReal :=
  fun i => distAt p q w ⟨(i 0).val, (i 0).isLt⟩ ⟨(i 1).val, (i 1).isLt⟩ ⟨(i 2).val, (i 2).isLt⟩

theorem dist_ix3 (p q : Seq.Idx → EReal) (w : Wt.Idx → EReal) (b : Fin 32) (k : Fin 8192) (s : Fin 10) :
    dist p q w (ix3 b k s) = distAt p q w b k s := rfl

end Cert.Spec

end
-- ==== Proof.Stacked.lean ====
/-
  The stacked left operand, read row range by row range at the ideal instance: rows 0..319 hold
  p[b,s,:] * q_last[b,:] (row 10 b + s), rows 320..639 hold p[b,s,:] * p[b,s,:], rows 640..671 hold
  q_last[b,:] * q_last[b,:]; the change to bf16 is the identity on extended reals.
-/
import proofs.«128800_j48481590837593_1_alg».proof.Proof.Around
import proofs.«128800_j48481590837593_1_alg».proof.Proof.Spec
import Idealize.ShloMosaic.Lib.Pipeline.Value
import Idealize.ShloMosaic.Lib.ValueIdx
import Idealize.ShloMosaic.Lib.StableHlo.Run
set_option maxRecDepth 16384

noncomputable section

open scoped BigOperators

namespace Cert.KernelIdeal.Region

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

/-! ## The operations that build the stacked operand, each read at an index -/

section Ops
variable (p q x : FVec Ideal S32x10x4096 .f32)

/-- The last step of q as a [32, 4096] array: the slice [:, 9:10, :], re-read without its unit axis. -/
private def qLast : FVec Ideal S32x4096 .f32 :=
  shapeCast S32x4096 (extractStridedSlice S32x1x4096 ![0, 9, 0] q slices_S32x10x4096_S32x1x4096_0_9_0)
    shapeCasts_S32x1x4096_S32x4096

/-- Entry (b, d) of it is q[b, 9, d]: row-major position b * 4096 + d of [32, 1, 4096] is (b, 0, d), and the slice
    shifts the middle coordinate by 9. -/
private theorem qLast_apply (b : Fin 32) (d : Fin 4096) : qLast q (ix2 b d) = q (ix3 b 9 d) := by
  unfold qLast
  refine (shapeCast_apply _ shapeCasts_S32x1x4096_S32x4096 (ix2 b d) (ix3 b (0 : Fin 1) d) ?_).trans ?_
  · rewrite [Shape.rowMajor_val_three, Shape.rowMajor_val_two]
    show (b.val * 1 + 0) * 4096 + d.val = b.val * 4096 + d.val
    omega
  · exact extractStridedSlice_apply ![0, 9, 0] q slices_S32x10x4096_S32x1x4096_0_9_0 (ix3 b (0 : Fin 1) d) (ix3 b 9 d)
      (fun a => match a with
        | ⟨0, _⟩ => by show b.val = 0 + b.val; omega
        | ⟨1, _⟩ => by show 9 = 9 + 0; rfl
        | ⟨2, _⟩ => by show d.val = 0 + d.val; omega)

/-- The last step of q repeated over the ten steps: two broadcasts, [32, 4096] to [32, 1, 4096] to [32, 10, 4096]. -/
private def qRep : FVec Ideal S32x10x4096 .f32 :=
  broadcastInDim S32x10x4096 ![0, 1, 2] bcast_S32x1x4096_S32x10x4096_0_1_2
    (broadcastInDim S32x1x4096 ![0, 2] bcast_S32x4096_S32x1x4096_0_2 (qLast q))

/-- Entry (b, s, d) of it is entry (b, d) of the last step, whatever s. -/
private theorem qRep_apply (b : Fin 32) (s : Fin 10) (d : Fin 4096) : qRep q (ix3 b s d) = qLast q (ix2 b d) := by
  unfold qRep
  refine (broadcastInDim_apply _ bcast_S32x1x4096_S32x10x4096_0_1_2 _ (ix3 b s d) (ix3 b (0 : Fin 1) d)
    (fun a => match a with
      | ⟨0, _⟩ => by show b.val = if (32 : Nat) = 1 then 0 else b.val; rw [if_neg (by decide)]
      | ⟨1, _⟩ => by show 0 = if (1 : Nat) = 1 then 0 else s.val; rw [if_pos rfl]
      | ⟨2, _⟩ => by show d.val = if (4096 : Nat) = 1 then 0 else d.val; rw [if_neg (by decide)])).trans ?_
  exact broadcastInDim_apply _ bcast_S32x4096_S32x1x4096_0_2 _ (ix3 b (0 : Fin 1) d) (ix2 b d)
    (fun a => match a with
      | ⟨0, _⟩ => by show b.val = if (32 : Nat) = 1 then 0 else b.val; rw [if_neg (by decide)]
      | ⟨1, _⟩ => by show d.val = if (4096 : Nat) = 1 then 0 else d.val; rw [if_neg (by decide)])

/-- A [32, 10, 4096] array re-read as [320, 4096]: row 10 b + s is (b, s, :), both at row-major position
    (10 b + s) * 4096 + d. -/
private theorem rows_apply (b : Fin 32) (s : Fin 10) (d : Fin 4096) (r : Fin 320) (hr : r.val = 10 * b.val + s.val) :
    shapeCast S320x4096 x shapeCasts_S32x10x4096_S320x4096 (ix2 r d) = x (ix3 b s d) :=
  shapeCast_apply x shapeCasts_S32x10x4096_S320x4096 (ix2 r d) (ix3 b s d) (by
    rewrite [Shape.rowMajor_val_three, Shape.rowMajor_val_two]
    show (b.val * 10 + s.val) * 4096 + d.val = r.val * 4096 + d.val
    omega)

end Ops

/-! ## The concatenation along rows, read in each of its three row ranges -/

section Cat
variable (A B : FVec Ideal S320x4096 .f32) (C : FVec Ideal S32x4096 .f32)

/-- [ A ; B ; C ]: 320 + 320 + 32 rows. -/
private def cat : FVec Ideal S672x4096 .f32 :=
  concatenate S672x4096 0 [⟨S320x4096, A⟩, ⟨S320x4096, B⟩, ⟨S32x4096, C⟩]
    concatenates_S320x4096_S320x4096_S32x4096_S672x4096_d0

/-- Rows 0..319 are A's. -/
private theorem cat_top (r : Fin 320) (R : Fin 672) (hR : R.val = r.val) (d : Fin 4096) :
    cat A B C (ix2 R d) = A (ix2 r d) := by
  unfold cat
  exact concatenate_apply_piece (0 : Fin S672x4096.rank) [⟨S320x4096, A⟩, ⟨S320x4096, B⟩, ⟨S32x4096, C⟩]
    concatenates_S320x4096_S320x4096_S32x4096_S672x4096_d0
    (ix2 R d) 0 (by show (0 : Nat) < 3; omega) S320x4096 A rfl rfl 0 rfl (ix2 r d)
    (fun b hb => match b, hb with
      | ⟨0, _⟩, hb => absurd rfl hb
      | ⟨1, _⟩, _ => rfl)
    (by show 0 + r.val = R.val; omega)

/-- Rows 320..639 are B's. -/
private theorem cat_mid (r : Fin 320) (R : Fin 672) (hR : R.val = 320 + r.val) (d : Fin 4096) :
    cat A B C (ix2 R d) = B (ix2 r d) := by
  unfold cat
  exact concatenate_apply_piece (0 : Fin S672x4096.rank) [⟨S320x4096, A⟩, ⟨S320x4096, B⟩, ⟨S32x4096, C⟩]
    concatenates_S320x4096_S320x4096_S32x4096_S672x4096_d0
    (ix2 R d) 1 (by show (1 : Nat) < 3; omega) S320x4096 B rfl rfl 320 rfl (ix2 r d)
    (fun b hb => match b, hb with
      | ⟨0, _⟩, hb => absurd rfl hb
      | ⟨1, _⟩, _ => rfl)
    (by show 320 + r.val = R.val; omega)

/-- Rows 640..671 are C's. -/
private theorem cat_bot (r : Fin 32) (R : Fin 672) (hR : R.val = 640 + r.val) (d : Fin 4096) :
    cat A B C (ix2 R d) = C (ix2 r d) := by
  unfold cat
  exact concatenate_apply_piece (0 : Fin S672x4096.rank) [⟨S320x4096, A⟩, ⟨S320x4096, B⟩, ⟨S32x4096, C⟩]
    concatenates_S320x4096_S320x4096_S32x4096_S672x4096_d0
    (ix2 R d) 2 (by show (2 : Nat) < 3; omega) S32x4096 C rfl rfl 640 rfl (ix2 r d)
    (fun b hb => match b, hb with
      | ⟨0, _⟩, hb => absurd rfl hb
      | ⟨1, _⟩, _ => rfl)
    (by show 640 + r.val = R.val; omega)

end Cat

/-- The stacked operand as a function of p and q: [ rows of p * q_last ; rows of p * p ; q_last * q_last ], changed
    to bf16. -/
private def stackOf (p q : FVec Ideal S32x10x4096 .f32) : FVec Ideal S672x4096 .bf16 :=
  truncf .bf16
    (cat (shapeCast S320x4096 (mulf p (qRep q)) shapeCasts_S32x10x4096_S320x4096)
      (shapeCast S320x4096 (mulf p p) shapeCasts_S32x10x4096_S320x4096)
      (mulf (qLast q) (qLast q)))
    bitsLt_bf16_f32

variable (m : (ℓ : Loc nD τ sig) → Buf (Elt Ideal) ℓ)

/-- p, q and W as launched on core `c`, and the stacked operand as the region finds it. -/
abbrev pArr (c : Dev nD) : Seq.Idx → EReal := m ((c : Thread nD τ).loc main_arg0)
abbrev qArr (c : Dev nD) : Seq.Idx → EReal := m ((c : Thread nD τ).loc main_arg1)
abbrev wArr (c : Dev nD) : Wt.Idx → EReal := m ((c : Thread nD τ).loc main_arg2)
abbrev stackedArr (c : Dev nD) : Stack.Idx → EReal := arrEntry m c main_v10

/-- What the eleven operations before the region leave in the stacked operand's array: each operation's result at its
    own array is its function of its operands' contents, and at every other array what was there. -/
private theorem stacked_eq (c : Dev nD) : stackedArr m c = stackOf (pArr m c) (qArr m c) := by
  dsimp only [stackedArr, arrEntry, atEntry]
  simp only [hostOps0, List.flatten_cons, List.flatten_nil, List.append_nil]
  after_results
  dsimp only [Matrix.cons_val]
  repeat (first
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide))
  rfl

theorem stacked_top (c : Dev nD) (b : Fin 32) (s : Fin 10) (d : Fin 4096) :
    stackedArr m c (ix2 (rowTop b s) d) = pArr m c (ix3 b s d) * qArr m c (ix3 b 9 d) := by
  refine (congrFun (stacked_eq m c) (ix2 (rowTop b s) d)).trans ?_
  refine (cat_top _ _ _ ⟨10 * b.val + s.val, by omega⟩ (rowTop b s) rfl d).trans ?_
  refine (rows_apply _ b s d _ rfl).trans ?_
  show pArr m c (ix3 b s d) * qRep (qArr m c) (ix3 b s d) = _
  rw [qRep_apply, qLast_apply]

theorem stacked_mid (c : Dev nD) (b : Fin 32) (s : Fin 10) (d : Fin 4096) :
    stackedArr m c (ix2 (rowMid b s) d) = pArr m c (ix3 b s d) * pArr m c (ix3 b s d) := by
  refine (congrFun (stacked_eq m c) (ix2 (rowMid b s) d)).trans ?_
  refine (cat_mid _ _ _ ⟨10 * b.val + s.val, by omega⟩ (rowMid b s) rfl d).trans ?_
  exact rows_apply _ b s d _ rfl

theorem stacked_bot (c : Dev nD) (b : Fin 32) (d : Fin 4096) :
    stackedArr m c (ix2 (rowBot b) d) = qArr m c (ix3 b 9 d) * qArr m c (ix3 b 9 d) := by
  refine (congrFun (stacked_eq m c) (ix2 (rowBot b) d)).trans ?_
  refine (cat_bot _ _ _ b (rowBot b) rfl d).trans ?_
  show qLast (qArr m c) (ix2 b d) * qLast (qArr m c) (ix2 b d) = _
  rw [qLast_apply]

end Cert.KernelIdeal.Region

end
-- ==== Proof.Body.lean ====
/-
  One call of the kernel body, at any float instance.

  The body reads a block of 512 rows of W and the whole stacked left operand, forms the
  [672, 512] block of products  sum over d of  a[i, d] * (w[j, d] * w[j, d])  in one matrix
  multiplication into a zero accumulator, and stores it over the whole output buffer. It also
  loads the output buffer before the store; that value is used by nothing, so the buffer may
  hold anything when the body starts.
-/
import proofs.«128800_j48481590837593_1_alg».proof.Proof.Gen.KernelIdeal.Launch
import proofs.«128800_j48481590837593_1_alg».proof.Proof.Gen.KernelIdeal.Skeleton
import proofs.«128800_j48481590837593_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three accesses: each is its buffer whole -/

abbrev allOfLeft : Rect S672x4096 := Rect.unit (s := S672x4096) ![0, 0] S672x4096.size inb_S672x4096_S672x4096_0_0
abbrev allOfRows : Rect S512x4096 := Rect.unit (s := S512x4096) ![0, 0] S512x4096.size inb_S512x4096_S512x4096_0_0
abbrev allOfOut : Rect S672x512 := Rect.unit (s := S672x512) ![0, 0] S672x512.size inb_S672x512_S672x512_0_0

/-- What the body leaves in the output buffer, from the stacked operand `a` and the 512 rows `w` of W it
    was handed: its one store, over the whole buffer, of the product block. -/
def productBlock (a : Vec F S672x4096 .bf16) (w : Vec F S512x4096 .f32) : Vec F S672x512 .f32 :=
  View.canon [⟨allOfOut, k0_pay1 (View.ld w allOfRows) (View.ld a allOfLeft)⟩]

/-- The one store covers the buffer. -/
theorem store_covers (p0 : Vec F S672x512 .f32) (y : S672x512.Idx) :
    ∃ pc ∈ ([⟨allOfOut, p0⟩] : List (View.Piece (Elt F) S672x512 .f32)), y ∈ pc.1.set :=
  View.cover_of_tiled [⟨allOfOut, p0⟩] S672x512.size (by rfl) y

set_option maxHeartbeats 1000000 in
/-- The body, given the stacked operand's buffer at `a`, the row block's at `w` and the output's at anything,
    runs to its end leaving the two inputs as they were and the output at `productBlock a w`. -/
theorem body_runs (c : Dev nD) (E : Set ℕ) (i : grid0.Coords)
    (arg1 : Memref sig .tc .vmem S672x4096 .bf16) (harg1 : arg1.IsWhole)
    (arg2 : Memref sig .tc .vmem S512x4096 .f32) (harg2 : arg2.IsWhole)
    (arg3 : Memref sig .tc .vmem S672x512 .f32) (harg3 : arg3.IsWhole)
    (a : Vec F S672x4096 .bf16) (w : Vec F S512x4096 .f32) (K : PUnit → sProp 𝕄) :
    iprop(owns (c : Thread nD τ) arg1 fullShare a ∗ owns (c : Thread nD τ) arg2 fullShare w
        ∗ (∃ d, owns (c : Thread nD τ) arg3 fullShare d)
        ∗ (iprop(owns (c : Thread nD τ) arg1 fullShare a ∗ owns (c : Thread nD τ) arg2 fullShare w
            ∗ owns (c : Thread nD τ) arg3 fullShare (productBlock a w)) -∗ K ⟨⟩))
      ⊢ wp frame (wpE (defs₀ (F := F)) Variants.none c none) E (cc0__mpl_kernel i arg1 harg1 arg2 harg2 arg3 harg3) K := by
  simp only [cc0__mpl_kernel_eq_skeleton]; unfold cc0__mpl_kernel_skel
  unfold owns
  iintro ⟨⟨%fa, %hfa, Ha⟩, ⟨%fw, %hfw, Hw⟩, ⟨%d, %fd, -, Hd⟩, Hk⟩
  subst hfa; subst hfw
  sl_exec
  sl_step
  iapply Hk
  isplitl [Ha]
  · iexists fa; isplitr; · ipureintro; rfl
    iexact Ha
  isplitl [Hw]
  · iexists fw; isplitr; · ipureintro; rfl
    iexact Hw
  iexists _; isplitr
  swap; · iexact Hd
  ipureintro
  exact View.read_writes_eq_canon _ _ _ (store_covers _)

end Cert.KernelIdeal.Region

end
-- ==== Proof.Run.lean ====
/-
  The region's run and the program's frame, at any float instance.

  At grid point t (of sixteen) the region stages the whole stacked left operand (fetched once, at
  the first point, and found again at every later one), rows 512 t .. 512 t + 511 of W, and writes
  back columns 512 t .. 512 t + 511 of the [672, 8192] product. The body's triple gives what the
  output buffer holds after each point; the library's run of the region around the operations
  before and after it then says that every execution ends, faults nowhere, leaves the product array
  at the sixteen blocks written back, and every array no window stages at what the operations after
  the region compute. p and q are such arrays and no operation writes them; W is a staged input,
  which the region only reads.
-/
import proofs.«128800_j48481590837593_1_alg».proof.Proof.Around
import proofs.«128800_j48481590837593_1_alg».proof.Proof.Body

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window stages -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (arrEntry m c (Pipeline.arrRef spec0 w))

/-- The proof data of the region on core `c`: the arrays as the region finds them; after the body at point `t`
    the two input buffers still at their blocks and the output buffer at the product block of them; the
    scoped rest and the generator register untouched; nothing owed; full shares. -/
def dats (_ : Fin 1) (c : Dev nD) : Dat τ (Elt F) Unit ℕ (UR sig nD τ) ℕ cfg0 c where
  A w := arrEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem entry_eq (c : Dev nD) (w : Fin cfg0.W) : (dats m 0 c).A w = arrEntry m c (Pipeline.arrRef spec0 w) := by
  dsimp only [dats]

theorem left_after (c : Dev nD) (t : Fin cfg0.N) : (dats m 0 c).after 0 t = blockAt m c 0 t := by dsimp only [dats]
theorem rows_after (c : Dev nD) (t : Fin cfg0.N) : (dats m 0 c).after 1 t = blockAt m c 1 t := by dsimp only [dats]
theorem out_after (c : Dev nD) (t : Fin cfg0.N) :
    (dats m 0 c).after 2 t = productBlock (blockAt m c 0 t) (blockAt m c 1 t) := by dsimp only [dats]

/-- The stacked operand's buffer holds the operand at every point: fetched at the first, and left in place by
    the body at each. -/
theorem left_found (c : Dev nD) (t : Fin cfg0.N) (d) : (dats m 0 c).before 0 t d = blockAt m c 0 t :=
  ((dats m 0 c).before_in_eq_fetched 0 rfl (fun _ => rfl) (fun _ _ _ => rfl)
      (fun t => by rw [left_after]; unfold Dat.blockOf blockAt; rw [entry_eq]; try rfl) t d).trans
    (by unfold Dat.fetched Dat.blockOf blockAt; rw [entry_eq]; try rfl)

/-- The row block's buffer holds rows 512 t .. of W at point t (fetched at every point). -/
theorem rows_found (c : Dev nD) (t : Fin cfg0.N) (d) : (dats m 0 c).before 1 t d = blockAt m c 1 t :=
  ((dats m 0 c).before_in_eq_fetched 1 rfl (fun _ => rfl) (fun _ _ _ => rfl)
      (fun t => by rw [rows_after]; unfold Dat.blockOf blockAt; rw [entry_eq]; try rfl) t d).trans
    (by unfold Dat.fetched Dat.blockOf blockAt; rw [entry_eq]; try rfl)

/-! ## The body at a point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def handedBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, the output buffer holds something; the
    invariant and the core's debts pass through unread. -/
theorem body_at (c : Dev nD) (t : Fin cfg0.N) :
    handed m c t ⊢ wp frame (wpE (defs₀ (F := F)) Variants.none c none) Set.univ (bodyAt0 t) (fun _ => handedBack m c t) := by
  unfold handed handedBack bodyAt0
  simp only [left_found, rows_found]
  rw [show (dats m 0 c).Φ t.succ = (dats m 0 c).Φ t.castSucc from rfl,
    show (dats m 0 c).owesAt () t.succ = (dats m 0 c).owesAt () t.castSucc from rfl,
    left_after, rows_after, out_after]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation for the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program ends without a fault; the
    three staged arrays end at what the proof data computes (the product array at the blocks written back), and
    every other unscoped array at what the operations after the region leave. -/
theorem run_main : θ_run defs (onTc (τ := τ) (main (F := F))) (s₀ m ρ)
    (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := after_within) (hfresh := after_allocs')
    (hkeep := after_keeps) (hmain := main_around m Variants.none) (hA := entry_eq m) (hΦ := fun _ _ => rfl)

/-- The frame: every execution ends, nothing faults, and p, q and W end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (end_p m (dats m) c),
     ((h c).2 main_arg1 (Pipeline.mem_restRefs_of main_arg1 (by decide) (by decide))).trans (end_q m (dats m) c),
     ((h c).1 1).trans ((((dats m 0 c).arrAt_in 1 rfl _).trans (entry_eq m c 1)).trans (entry_W m c))⟩) (run_main m ρ)

end Cert.KernelIdeal.Region

end
-- ==== Proof.Product.lean ====
/-
  The product array after the region, at the ideal instance: the sixteen column blocks the region
  writes back tile the [672, 8192] array, and block t is the product of the stacked operand against
  the squares of rows 512 t .. 512 t + 511 of W, so the whole array is the product against all of W.
-/
import proofs.«128800_j48481590837593_1_alg».proof.Proof.Run
import proofs.«128800_j48481590837593_1_alg».proof.Proof.Spec
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Region

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ)

/-! ## One entry of the body's product block -/

/-- The matrix product's left index: row of the output entry, contracted feature. -/
theorem left_row (i : S672x512.Idx) (q : dot_S672x4096_S512x4096_S672x512_1_1_0_0_n_n.contr.Idx) :
    (dot_S672x4096_S512x4096_S672x512_1_1_0_0_n_n.lhsIdx i q 0).val = (i 0).val := by
  unfold DotDims.lhsIdx
  rw [dif_neg (show ¬(0 : Fin S672x4096.rank) ∈ dot_S672x4096_S512x4096_S672x512_1_1_0_0_n_n.lhsBatch by decide), dif_pos (show (0 : Fin S672x4096.rank) ∈ dot_S672x4096_S512x4096_S672x512_1_1_0_0_n_n.lhsNonContracting by decide)]
  rfl
theorem left_feature (i : S672x512.Idx) (q : dot_S672x4096_S512x4096_S672x512_1_1_0_0_n_n.contr.Idx) :
    (dot_S672x4096_S512x4096_S672x512_1_1_0_0_n_n.lhsIdx i q 1).val = (q ⟨0, by decide⟩).val :=
  dot_S672x4096_S512x4096_S672x512_1_1_0_0_n_n.lhsIdx_val_of_single rfl i q
/-- Its right index: column of the output entry (a row of the W block), contracted feature. -/
theorem right_row (i : S672x512.Idx) (q : dot_S672x4096_S512x4096_S672x512_1_1_0_0_n_n.contr.Idx) :
    (dot_S672x4096_S512x4096_S672x512_1_1_0_0_n_n.rhsIdx i q 0).val = (i 1).val := by
  unfold DotDims.rhsIdx
  rw [dif_neg (show ¬(0 : Fin S512x4096.rank) ∈ dot_S672x4096_S512x4096_S672x512_1_1_0_0_n_n.rhsBatch by decide), dif_pos (show (0 : Fin S512x4096.rank) ∈ dot_S672x4096_S512x4096_S672x512_1_1_0_0_n_n.rhsNonContracting by decide)]
  rfl
theorem right_feature (i : S672x512.Idx) (q : dot_S672x4096_S512x4096_S672x512_1_1_0_0_n_n.contr.Idx) :
    (dot_S672x4096_S512x4096_S672x512_1_1_0_0_n_n.rhsIdx i q 1).val = (q ⟨0, by decide⟩).val :=
  dot_S672x4096_S512x4096_S672x512_1_1_0_0_n_n.rhsIdx_val_of_single rfl i q

/-- The body's payload at an entry: the product into a zero accumulator is the plain sum over the
    feature axis of  a[r, d] * (w[j, d] * w[j, d]); the two changes of format are the identity. -/
theorem payload_entry (a : Vec Ideal S672x4096 .bf16) (w : Vec Ideal S512x4096 .f32) (r : Fin 672) (j : Fin 512) :
    k0_pay1 (F := Ideal) w a (ix2 r j) = ∑ d : Fin 4096, a (ix2 r d) * (w (ix2 j d) * w (ix2 j d)) := by
  unfold k0_pay1
  simp only [matmul]
  rw [Ideal.matmul_constant_zero_apply,
    ← Equiv.sum_comp (contrEquiv1 dot_S672x4096_S512x4096_S672x512_1_1_0_0_n_n 4096 rfl rfl).symm]
  refine Finset.sum_congr rfl fun d _ => ?_
  have hd := contrEquiv1_symm_val dot_S672x4096_S512x4096_S672x512_1_1_0_0_n_n 4096 rfl rfl d
  have el : dot_S672x4096_S512x4096_S672x512_1_1_0_0_n_n.lhsIdx (ix2 r j) ((contrEquiv1 dot_S672x4096_S512x4096_S672x512_1_1_0_0_n_n 4096 rfl rfl).symm d) = ix2 r d := funext fun x => Fin.ext (by
    match x with
    | ⟨0, _⟩ => exact left_row _ _
    | ⟨1, _⟩ => exact (left_feature _ _).trans hd)
  have er : dot_S672x4096_S512x4096_S672x512_1_1_0_0_n_n.rhsIdx (ix2 r j) ((contrEquiv1 dot_S672x4096_S512x4096_S672x512_1_1_0_0_n_n 4096 rfl rfl).symm d) = ix2 j d := funext fun x => Fin.ext (by
    match x with
    | ⟨0, _⟩ => exact right_row _ _
    | ⟨1, _⟩ => exact (right_feature _ _).trans hd)
  rw [el, er, shapeCast_self]
  rfl

theorem zero_offsets : (![0, 0] : Fin 2 → Nat) = fun _ => 0 := funext fun a => by fin_cases a <;> rfl

/-- The body's product block at an entry. -/
theorem productBlock_entry (a : Vec Ideal S672x4096 .bf16) (w : Vec Ideal S512x4096 .f32) (r : Fin 672) (j : Fin 512) :
    productBlock (F := Ideal) a w (ix2 r j) = ∑ d : Fin 4096, a (ix2 r d) * (w (ix2 j d) * w (ix2 j d)) := by
  unfold productBlock
  rw [View.canon_unit_zero zero_offsets]
  simp only [View.ld_unit_zero (S := S672x4096) zero_offsets, View.ld_unit_zero (S := S512x4096) zero_offsets]
  exact payload_entry a w r j

/-! ## From the sixteen blocks to the array -/

/-- The printed index maps over the grid: the stacked operand is one block; point t stages row block t
    of W and writes back column block t of the product. -/
theorem index_maps : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The product array when the region has run. -/
abbrev productArr (c : Dev nD) : Prod.Idx → EReal := (dats m 0 c).arrAt 2 cfg0.N

/-- What point t writes back is column block t of the product of the stacked operand against all of W. -/
theorem written_back (c : Dev nD) (t : Fin cfg0.N) :
    (dats m 0 c).flushed 2 t = ((cfg0.win 2).blk t).view.read (Elt Ideal)
      (product (arrEntry m c main_v10 : Stack.Idx → EReal) (arrEntry m c main_arg2 : Wt.Idx → EReal)) := by
  show (cfg0.win 2).cut (grid0.coords t) ((dats m 0 c).after 2 t) = _
  rw [out_after]
  obtain ⟨e0, e1, e2, e3, e4, e5⟩ := index_maps t
  funext y
  obtain ⟨r, j, rfl⟩ : ∃ (r : Fin 672) (j : Fin 512), y = ix2 r j := ⟨y 0, y 1, eq_ix2 y⟩
  show productBlock (blockAt m c 0 t) (blockAt m c 1 t) (ix2 r j)
    = product (arrEntry m c main_v10 : Stack.Idx → EReal) (arrEntry m c main_arg2 : Wt.Idx → EReal)
        (((cfg0.win 2).blk t).view.emb (ix2 r j))
  refine (productBlock_entry (blockAt m c 0 t) (blockAt m c 1 t) r j).trans ?_
  unfold product productAt
  refine Finset.sum_congr rfl fun d _ => ?_
  have hA : blockAt m c 0 t (ix2 r d)
      = (arrEntry m c main_v10 : Stack.Idx → EReal)
          (ix2 ⟨((((cfg0.win 2).blk t).view.emb (ix2 r j)) 0).val, idx2_lt0 _⟩ d) := by
    show (arrEntry m c main_v10 : Stack.Idx → EReal) (((cfg0.win 0).blk t).view.emb (ix2 r d)) = _
    refine congrArg _ (funext fun a => Fin.ext ?_)
    match a with
    | ⟨0, _⟩ => show win0_0.index t (0 : Fin 2) * 672 + 1 * r.val = win0_2.index t (0 : Fin 2) * 672 + 1 * r.val; omega
    | ⟨1, _⟩ => show win0_0.index t (1 : Fin 2) * 4096 + 1 * d.val = d.val; omega
  have hW : blockAt m c 1 t (ix2 j d)
      = (arrEntry m c main_arg2 : Wt.Idx → EReal)
          (ix2 ⟨((((cfg0.win 2).blk t).view.emb (ix2 r j)) 1).val, idx2_lt1 _⟩ d) := by
    show (arrEntry m c main_arg2 : Wt.Idx → EReal) (((cfg0.win 1).blk t).view.emb (ix2 j d)) = _
    refine congrArg _ (funext fun a => Fin.ext ?_)
    match a with
    | ⟨0, _⟩ => show win0_1.index t (0 : Fin 2) * 512 + 1 * j.val = win0_2.index t (1 : Fin 2) * 512 + 1 * j.val; omega
    | ⟨1, _⟩ => show win0_1.index t (1 : Fin 2) * 4096 + 1 * d.val = d.val; omega
  rw [hA, hW]

/-- An index of the product array is in point t's block iff each coordinate is in the block's range. -/
theorem in_block (t : Fin cfg0.N) (i : S672x8192.Idx) :
    i ∈ ((cfg0.win 2).blk t).view.set ↔ ∀ a : Fin 2, win0_2.index t a * S672x512.size a ≤ (i a).val
      ∧ (i a).val < win0_2.index t a * S672x512.size a + S672x512.size a := by
  show i ∈ ((View.whole main_v11).slice (win0_2.rect t)).set ↔ _
  rw [View.set_slice_whole, Rect.mem_set_unit]
  exact Iff.rfl

/-- Column k lies in the block of point k / 512: the sixteen blocks cover the array. -/
theorem blocks_cover (i : S672x8192.Idx) :
    ∃ t : Fin cfg0.N, (cfg0.win 2).flush t = true ∧ i ∈ ((cfg0.win 2).blk t).view.set := by
  have hi0 : (i 0).val < 672 := (i 0).isLt
  have hi1 : (i 1).val < 8192 := (i 1).isLt
  have hN : (i 1).val / 512 < cfg0.N := by show _ < grid0.N; rw [N_0]; omega
  refine ⟨⟨(i 1).val / 512, hN⟩, flush0_2 _, ?_⟩
  rw [in_block]
  obtain ⟨-, -, -, -, e4, e5⟩ := index_maps ⟨(i 1).val / 512, hN⟩
  intro a
  match a with
  | ⟨0, _⟩ =>
    show win0_2.index ⟨(i 1).val / 512, hN⟩ (0 : Fin 2) * 672 ≤ (i 0).val
      ∧ (i 0).val < win0_2.index ⟨(i 1).val / 512, hN⟩ (0 : Fin 2) * 672 + 672
    rw [e4]; omega
  | ⟨1, _⟩ =>
    show win0_2.index ⟨(i 1).val / 512, hN⟩ (1 : Fin 2) * 512 ≤ (i 1).val
      ∧ (i 1).val < win0_2.index ⟨(i 1).val / 512, hN⟩ (1 : Fin 2) * 512 + 512
    rw [e5]; show (i 1).val / 512 * 512 ≤ (i 1).val ∧ (i 1).val < (i 1).val / 512 * 512 + 512; omega

/-- The whole product array: the stacked operand against the squared rows of all of W. -/
theorem product_final (c : Dev nD) :
    productArr m c = product (arrEntry m c main_v10 : Stack.Idx → EReal) (arrEntry m c main_arg2 : Wt.Idx → EReal) :=
  (dats m 0 c).arrAt_eq_of_cover 2 _ (fun t _ => written_back m c t) blocks_cover

end Cert.KernelIdeal.Region

end
-- ==== Proof.Tail.lean ====
/-
  The operations after the region, at the ideal instance. They cut the [672, 8192] product R into its
  three row ranges, and compute, at [b, s, k],
     (-R[10 b + s, k]) / ((sqrt R[320 + 10 b + s, k] * sqrt R[640 + b, k]) * 4096),
  then swap the last two axes and re-read the [32, 8192, 10] array row-major as [32, 10, 8192].
-/
import proofs.«128800_j48481590837593_1_alg».proof.Proof.Run
import proofs.«128800_j48481590837593_1_alg».proof.Proof.Spec
import Idealize.ShloMosaic.Lib.Pipeline.Value
import Idealize.ShloMosaic.Lib.ValueIdx
import Idealize.ShloMosaic.Lib.StableHlo.Run
set_option maxRecDepth 16384

noncomputable section

open scoped BigOperators

namespace Cert.KernelIdeal.Region

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ)

/-- The operations after the region up to the last re-reading, as one function of the product array. -/
def distOfProduct (R : Prod.Idx → EReal) : Dist.Idx → EReal :=
  transpose S32x8192x10 [0, 2, 1]
    (Host.divf (F := Ideal)
      (Host.negf (F := Ideal) (shapeCast S32x10x8192 (extractStridedSlice S320x8192 ![0, 0] (R : FVec Ideal S672x8192 .f32) slices_S672x8192_S320x8192_0_0) shapeCasts_S320x8192_S32x10x8192))
      (mulf
        (mulf
          (Host.sqrt (F := Ideal) (shapeCast S32x10x8192 (extractStridedSlice S320x8192 ![320, 0] (R : FVec Ideal S672x8192 .f32) slices_S672x8192_S320x8192_320_0) shapeCasts_S320x8192_S32x10x8192))
          (broadcastInDim S32x10x8192 ![0, 1, 2] bcast_S32x1x8192_S32x10x8192_0_1_2
            (broadcastInDim S32x1x8192 ![0, 2] bcast_S32x8192_S32x1x8192_0_2
              (Host.sqrt (F := Ideal) (extractStridedSlice S32x8192 ![640, 0] (R : FVec Ideal S672x8192 .f32) slices_S672x8192_S32x8192_640_0)))))
        (broadcastInDim S32x10x8192 ![] bcast_S_S32x10x8192 (constant (F := Ideal) S_ .f32 0x45800000#32))))
    transposes_S32x10x8192_S32x8192x10_0_2_1

/-- The first 320 rows of the product: row r of the slice is row r of the product. -/
private theorem sliceTop_apply (R : S672x8192.Idx → EReal) (b : Fin 32) (s : Fin 10) (k : Fin 8192) :
    extractStridedSlice S320x8192 ![0, 0] R slices_S672x8192_S320x8192_0_0
        (ix2 (⟨10 * b.val + s.val, by omega⟩ : Fin 320) k)
      = R (ix2 (rowTop b s) k) :=
  extractStridedSlice_apply ![0, 0] R slices_S672x8192_S320x8192_0_0 _ (ix2 (rowTop b s) k) (fun a => match a with
    | ⟨0, _⟩ => by show 10 * b.val + s.val = 0 + (10 * b.val + s.val); omega
    | ⟨1, _⟩ => by show k.val = 0 + k.val; omega)

/-- The next 320 rows: row r of the slice is row 320 + r of the product. -/
private theorem sliceMid_apply (R : S672x8192.Idx → EReal) (b : Fin 32) (s : Fin 10) (k : Fin 8192) :
    extractStridedSlice S320x8192 ![320, 0] R slices_S672x8192_S320x8192_320_0
        (ix2 (⟨10 * b.val + s.val, by omega⟩ : Fin 320) k)
      = R (ix2 (rowMid b s) k) :=
  extractStridedSlice_apply ![320, 0] R slices_S672x8192_S320x8192_320_0 _ (ix2 (rowMid b s) k) (fun a => match a with
    | ⟨0, _⟩ => by show 320 + (10 * b.val + s.val) = 320 + (10 * b.val + s.val); rfl
    | ⟨1, _⟩ => by show k.val = 0 + k.val; omega)

/-- The last 32 rows: row b of the slice is row 640 + b of the product. -/
private theorem sliceBot_apply (R : S672x8192.Idx → EReal) (b : Fin 32) (k : Fin 8192) :
    extractStridedSlice S32x8192 ![640, 0] R slices_S672x8192_S32x8192_640_0 (ix2 b k)
      = R (ix2 (rowBot b) k) :=
  extractStridedSlice_apply ![640, 0] R slices_S672x8192_S32x8192_640_0 _ (ix2 (rowBot b) k) (fun a => match a with
    | ⟨0, _⟩ => by show 640 + b.val = 640 + b.val; rfl
    | ⟨1, _⟩ => by show k.val = 0 + k.val; omega)

/-- Re-reading [320, 8192] row-major as [32, 10, 8192]: entry [b, s, k] is entry [10 b + s, k]. -/
private theorem rows_apply (y : S320x8192.Idx → EReal) (b : Fin 32) (s : Fin 10) (k : Fin 8192) :
    shapeCast S32x10x8192 y shapeCasts_S320x8192_S32x10x8192 (ix3 b s k)
      = y (ix2 (⟨10 * b.val + s.val, by omega⟩ : Fin 320) k) :=
  shapeCast_apply y shapeCasts_S320x8192_S32x10x8192 (ix3 b s k) _
    (by rewrite [Shape.rowMajor_val_two, Shape.rowMajor_val_three]
        show (10 * b.val + s.val) * 8192 + k.val = (b.val * 10 + s.val) * 8192 + k.val; omega)

/-- Inserting a unit axis. -/
private theorem unit_apply (y : S32x8192.Idx → EReal) (b : Fin 32) (z : Fin 1) (k : Fin 8192) :
    broadcastInDim S32x1x8192 ![0, 2] bcast_S32x8192_S32x1x8192_0_2 y (ix3 b z k) = y (ix2 b k) :=
  broadcastInDim_apply _ bcast_S32x8192_S32x1x8192_0_2 y (ix3 b z k) (ix2 b k) (fun a => match a with
    | ⟨0, _⟩ => by show b.val = if (32 : Nat) = 1 then 0 else b.val; rw [if_neg (by decide)]
    | ⟨1, _⟩ => by show k.val = if (8192 : Nat) = 1 then 0 else k.val; rw [if_neg (by decide)])

/-- Repeating along the unit axis. -/
private theorem steps_apply (y : S32x1x8192.Idx → EReal) (b : Fin 32) (s : Fin 10) (k : Fin 8192) :
    broadcastInDim S32x10x8192 ![0, 1, 2] bcast_S32x1x8192_S32x10x8192_0_1_2 y (ix3 b s k) = y (ix3 b (0 : Fin 1) k) :=
  broadcastInDim_apply _ bcast_S32x1x8192_S32x10x8192_0_1_2 y (ix3 b s k) (ix3 b (0 : Fin 1) k) (fun a => match a with
    | ⟨0, _⟩ => by show b.val = if (32 : Nat) = 1 then 0 else b.val; rw [if_neg (by decide)]
    | ⟨1, _⟩ => by show 0 = if (1 : Nat) = 1 then 0 else s.val; rw [if_pos rfl]
    | ⟨2, _⟩ => by show k.val = if (8192 : Nat) = 1 then 0 else k.val; rw [if_neg (by decide)])

/-- A scalar repeated everywhere. -/
private theorem scalar_apply (y : S_.Idx → EReal) (j : S32x10x8192.Idx) :
    broadcastInDim S32x10x8192 ![] bcast_S_S32x10x8192 y j = y ix0 :=
  broadcastInDim_apply _ bcast_S_S32x10x8192 y j ix0 (fun a => a.elim0)

/-- Swapping the last two axes. -/
private theorem swap_apply (x : S32x10x8192.Idx → EReal) (b : Fin 32) (k : Fin 8192) (s : Fin 10) :
    transpose S32x8192x10 [0, 2, 1] x transposes_S32x10x8192_S32x8192x10_0_2_1 (ix3 b k s) = x (ix3 b s k) :=
  transpose_apply [0, 2, 1] x transposes_S32x10x8192_S32x8192x10_0_2_1 (ix3 b k s) (ix3 b s k) (fun c => match c with
    | ⟨0, _⟩ => rfl
    | ⟨1, _⟩ => rfl
    | ⟨2, _⟩ => rfl)

/-- One entry of it. -/
theorem distOfProduct_apply (R : Prod.Idx → EReal) (b : Fin 32) (k : Fin 8192) (s : Fin 10) :
    distOfProduct R (ix3 b k s)
      = distOf (R (ix2 (rowTop b s) k)) (R (ix2 (rowMid b s) k)) (R (ix2 (rowBot b) k)) := by
  unfold distOfProduct distOf
  refine (swap_apply _ b k s).trans ?_
  -- the numerator: the first row range, re-read as [32, 10, 8192]
  have eTop := (rows_apply (extractStridedSlice S320x8192 ![0, 0] R slices_S672x8192_S320x8192_0_0) b s k).trans
    (sliceTop_apply R b s k)
  -- the first root: the second row range, re-read as [32, 10, 8192]
  have eMid := (rows_apply (extractStridedSlice S320x8192 ![320, 0] R slices_S672x8192_S320x8192_320_0) b s k).trans
    (sliceMid_apply R b s k)
  -- the second root: the root of the third row range, repeated along the steps
  have eBot := (steps_apply (broadcastInDim S32x1x8192 ![0, 2] bcast_S32x8192_S32x1x8192_0_2
        (Host.sqrt (F := Ideal) (φ := .f32)
          (extractStridedSlice S32x8192 ![640, 0] (R : FVec Ideal S672x8192 .f32) slices_S672x8192_S32x8192_640_0))) b s k).trans
    ((unit_apply (Host.sqrt (F := Ideal) (φ := .f32)
          (extractStridedSlice S32x8192 ![640, 0] (R : FVec Ideal S672x8192 .f32) slices_S672x8192_S32x8192_640_0)) b 0 k).trans
      (congrArg Ideal.sqrt (sliceBot_apply R b k)))
  -- the constant
  have eCst := scalar_apply (constant (F := Ideal) S_ .f32 0x45800000#32) (ix3 b s k)
  exact congrArg₂ Ideal.div (congrArg Neg.neg eTop)
    (congrArg₂ (· * ·) (congrArg₂ (· * ·) (congrArg Ideal.sqrt eMid) eBot) eCst)

/-- The program's result array, after everything: the re-reading of `distOfProduct` of the product array. -/
theorem result_end (c : Dev nD) :
    Pipeline.afterTail₀ cfgs (dats m) 0 (atEntry m) [hostOps1] c main_v27
      = shapeCast S32x10x8192 (distOfProduct ((dats m 0 c).arrAt 2 cfg0.N)) shapeCasts_S32x8192x10_S32x10x8192 := by
  unfold Pipeline.afterTail₀
  show StableHlo.after hostOps1 _ (Proc.devRef .tc main_v27) = _
  after_results
  -- the product array is the region's third window: what the region leaves there
  have hR : Pipeline.withArrays (cfgs 0).spec c (atEntry m c) (fun w => (dats m 0 c).arrAt w (cfgs 0).N)
      (Proc.devRef .tc main_v11) = (dats m 0 c).arrAt 2 cfg0.N :=
    Pipeline.withArrays_arr spec0 launch0.win.arr_inj c _ _ 2
  rw [hR]
  unfold distOfProduct
  rfl

end Cert.KernelIdeal.Region

end
-- ==== Proof.KernelDist.lean ====
/-
  The kernel's program at the ideal instance computes the specification's distances: the rows of
  the product array are the three weighted sums, row range by row range, and the operations after
  the region combine them entry by entry in the specification's order.
-/
import proofs.«128800_j48481590837593_1_alg».proof.Proof.Stacked
import proofs.«128800_j48481590837593_1_alg».proof.Proof.Product
import proofs.«128800_j48481590837593_1_alg».proof.Proof.Tail
set_option maxRecDepth 16384

noncomputable section

open scoped BigOperators

namespace Cert.KernelIdeal.Region

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ)

/-- The array before the last re-reading is the distance array of p, q and W as launched. -/
theorem kernel_dist (c : Dev nD) :
    distOfProduct (productArr m c) = dist (pArr m c) (qArr m c) (wArr m c) := by
  funext i
  obtain ⟨b, k, s, rfl⟩ : ∃ (b : Fin 32) (k : Fin 8192) (s : Fin 10), i = ix3 b k s := ⟨i 0, i 1, i 2, eq_ix3 i⟩
  rw [distOfProduct_apply, dist_ix3, product_final]
  simp only [product_ix2]
  unfold distAt productAt dotPQ sqP sqQ
  have hW : (arrEntry m c main_arg2 : Wt.Idx → EReal) = wArr m c := entry_W m c
  rw [hW]
  refine congr (congr (congrArg distOf ?_) ?_) ?_
  · exact Finset.sum_congr rfl fun d _ => by rw [← stacked_top m c b s d]
  · exact Finset.sum_congr rfl fun d _ => by rw [← stacked_mid m c b s d]
  · exact Finset.sum_congr rfl fun d _ => by rw [← stacked_bot m c b d]

variable (ρ : Dev nD → PrngReg)

/-- Every execution of the kernel's program at the ideal instance ends with the result array at the
    row-major re-reading of the distance array, and p, q, W as launched. -/
theorem value_run : θ_run defs (onTc (τ := τ) (main (F := Ideal))) ⟨m, fun _ => 0, ρ⟩ (fun r => ∀ c : Dev nD,
      r.2.mem ((c.tc : Thread nD τ).loc main_v27)
        = shapeCast S32x10x8192 (dist (pArr m c) (qArr m c) (wArr m c)) Gen.shapeCasts_S32x8192x10_S32x10x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans
        ((result_end m c).trans (by rw [show (dats m 0 c).arrAt 2 cfg0.N = productArr m c from rfl, kernel_dist])),
     ((h c).2 main_arg0 (Pipeline.mem_restRefs_of main_arg0 (by decide) (by decide))).trans (end_p m (dats m) c),
     ((h c).2 main_arg1 (Pipeline.mem_restRefs_of main_arg1 (by decide) (by decide))).trans (end_q m (dats m) c),
     ((h c).1 1).trans ((((dats m 0 c).arrAt_in 1 rfl _).trans (entry_eq m c 1)).trans (entry_W m c))⟩) (run_main m ρ)

end Cert.KernelIdeal.Region

end
-- ==== Proof.RefSide.lean ====
/-
  The reference at the ideal instance computes the distance array [batch, perspective, step] of the
  specification. Its two three-axis contractions put W*W on the left, so each of their terms is the
  specification's term with its two factors swapped; multiplication of extended reals is commutative.
-/
import proofs.«128800_j48481590837593_1_alg».proof.Proof.Gen.ReferenceIdeal.Run
import proofs.«128800_j48481590837593_1_alg».proof.Proof.Gen.ReferenceIdeal.Read
import proofs.«128800_j48481590837593_1_alg».proof.Proof.Spec
import Idealize.ShloMosaic.Lib.ValueIdx
import Idealize.ShloMosaic.PureOps.Ideal.Laws

set_option maxRecDepth 16384

noncomputable section

open scoped BigOperators

namespace Cert.ReferenceIdeal.RefSide

open Idealize.ShloMosaic Idealize.ShloMosaic.ValueIdx
open Cert.ReferenceIdeal Cert.ReferenceIdeal.Gen Cert.ReferenceIdeal.Read Cert.Spec

/-- The last step of q, read through the slice and the reshape: q_last[b,d] = q[b,9,d]. -/
private theorem qLast_apply (x1 : Seq.Idx → EReal) (b : Fin 32) (d : Fin 4096) :
    val_main_v2 (F := Ideal) x1 (ix2 b d) = x1 (ix3 b 9 d) := by
  refine (val_main_v2_apply (F := Ideal) x1 (ix2 b d)).trans ?_
  refine (val_main_v1_apply (F := Ideal) x1 _).trans ?_
  refine congrArg x1 ?_
  have hb : b.val < 32 := b.isLt
  have hd : d.val < 4096 := d.isLt
  funext a
  refine Fin.ext ?_
  match a with
  | ⟨0, _⟩ => show (b.val * 4096 + d.val) / 4096 = b.val; omega
  | ⟨1, _⟩ => rfl
  | ⟨2, _⟩ => show (b.val * 4096 + d.val) % 4096 = d.val; omega

/-- q_last broadcast along the steps: every step s reads q[b,9,d]. -/
private theorem qLastBcast_apply (x1 : Seq.Idx → EReal) (b : Fin 32) (s : Fin 10) (d : Fin 4096) :
    val_main_v4 (F := Ideal) x1 (ix3 b s d) = x1 (ix3 b 9 d) := by
  refine (val_main_v4_apply (F := Ideal) x1 (ix3 b s d)).trans ?_
  refine (val_main_v3_apply (F := Ideal) x1 _).trans ?_
  have e : idx_main_v3 (idx_main_v4 (ix3 b s d)) = ix2 b d :=
    funext fun a => Fin.ext (by match a with | ⟨0, _⟩ => rfl | ⟨1, _⟩ => rfl)
  rw [e]
  exact qLast_apply x1 b d

/-- The first contraction, transposed to [batch, perspective, step], is the weighted inner product.
    Its terms have W*W on the left; the factors are swapped by commutativity. -/
private theorem v7_apply (x0 x1 : Seq.Idx → EReal) (x2 : Wt.Idx → EReal) (b : Fin 32) (k : Fin 8192) (s : Fin 10) :
    val_main_v7 (F := Ideal) x0 x1 x2 (ix3 b k s) = dotPQ x0 x1 x2 b k s := by
  refine (val_main_v7_apply (F := Ideal) x0 x1 x2 (ix3 b k s)).trans ?_
  refine (val_main_v6_apply x0 x1 x2 _).trans ?_
  unfold dotPQ
  refine Finset.sum_congr rfl fun d _ => ?_
  have hl : lidx_main_v6 (idx_main_v7 (ix3 b k s)) d = ix2 k d :=
    funext fun a => Fin.ext (by match a with | ⟨0, _⟩ => rfl | ⟨1, _⟩ => rfl)
  have hr : ridx_main_v6 (idx_main_v7 (ix3 b k s)) d = ix3 b s d :=
    funext fun a => Fin.ext (by match a with | ⟨0, _⟩ => rfl | ⟨1, _⟩ => rfl | ⟨2, _⟩ => rfl)
  rw [hl, hr]
  show (x2 (ix2 k d) * x2 (ix2 k d)) * (x0 (ix3 b s d) * val_main_v4 (F := Ideal) x1 (ix3 b s d)) = _
  rw [qLastBcast_apply]
  exact mul_comm _ _

/-- The second contraction, transposed, is the weighted squared norm of p[b,s,:]; again W*W is the
    left factor of each term. -/
private theorem v10_apply (x0 : Seq.Idx → EReal) (x2 : Wt.Idx → EReal) (b : Fin 32) (k : Fin 8192) (s : Fin 10) :
    val_main_v10 (F := Ideal) x0 x2 (ix3 b k s) = sqP x0 x2 b k s := by
  refine (val_main_v10_apply (F := Ideal) x0 x2 (ix3 b k s)).trans ?_
  refine (val_main_v9_apply x0 x2 _).trans ?_
  unfold sqP
  refine Finset.sum_congr rfl fun d _ => ?_
  have hl : lidx_main_v9 (idx_main_v10 (ix3 b k s)) d = ix2 k d :=
    funext fun a => Fin.ext (by match a with | ⟨0, _⟩ => rfl | ⟨1, _⟩ => rfl)
  have hr : ridx_main_v9 (idx_main_v10 (ix3 b k s)) d = ix3 b s d :=
    funext fun a => Fin.ext (by match a with | ⟨0, _⟩ => rfl | ⟨1, _⟩ => rfl | ⟨2, _⟩ => rfl)
  rw [hl, hr]
  show (x2 (ix2 k d) * x2 (ix2 k d)) * (x0 (ix3 b s d) * x0 (ix3 b s d)) = _
  exact mul_comm _ _

/-- The third contraction is the weighted squared norm of q_last[b,:], in the specification's order. -/
private theorem v13_apply (x1 : Seq.Idx → EReal) (x2 : Wt.Idx → EReal) (b : Fin 32) (k : Fin 8192) :
    val_main_v13 (F := Ideal) x1 x2 (ix2 b k) = sqQ x1 x2 b k := by
  refine (val_main_v13_apply x1 x2 (ix2 b k)).trans ?_
  unfold sqQ
  refine Finset.sum_congr rfl fun d _ => ?_
  have hl : lidx_main_v13 (ix2 b k) d = ix2 b d :=
    funext fun a => Fin.ext (by match a with | ⟨0, _⟩ => rfl | ⟨1, _⟩ => rfl)
  have hr : ridx_main_v13 (ix2 b k) d = ix2 k d :=
    funext fun a => Fin.ext (by match a with | ⟨0, _⟩ => rfl | ⟨1, _⟩ => rfl)
  rw [hl, hr]
  show (val_main_v2 (F := Ideal) x1 (ix2 b d) * val_main_v2 (F := Ideal) x1 (ix2 b d)) * (x2 (ix2 k d) * x2 (ix2 k d)) = _
  rw [qLast_apply]

/-- The norm of q_last broadcast along the steps. -/
private theorem normQBcast_apply (x1 : Seq.Idx → EReal) (x2 : Wt.Idx → EReal) (b : Fin 32) (k : Fin 8192) (s : Fin 10) :
    val_main_v17 (F := Ideal) x1 x2 (ix3 b k s) = Ideal.sqrt (sqQ x1 x2 b k) := by
  refine (val_main_v17_apply (F := Ideal) x1 x2 (ix3 b k s)).trans ?_
  refine (val_main_v16_apply (F := Ideal) x1 x2 _).trans ?_
  have e : idx_main_v16 (idx_main_v17 (ix3 b k s)) = ix2 b k :=
    funext fun a => Fin.ext (by match a with | ⟨0, _⟩ => rfl | ⟨1, _⟩ => rfl)
  rw [e]
  show Ideal.sqrt (val_main_v13 (F := Ideal) x1 x2 (ix2 b k)) = _
  rw [v13_apply]

/-- The scale 4096, broadcast from the scalar constant. -/
private theorem scale_apply (b : Fin 32) (k : Fin 8192) (s : Fin 10) :
    val_main_v19 (F := Ideal) (ix3 b k s) = Ideal.ofBits .f32 0x45800000#32 := by
  refine (val_main_v19_apply (F := Ideal) (ix3 b k s)).trans ?_
  rfl

/-- The reference's array before its last re-reading is the specification's distance array. -/
theorem reference_dist (x0 x1 : Seq.Idx → EReal) (x2 : Wt.Idx → EReal) :
    val_main_v21 (F := Ideal) x0 x1 x2 = dist x0 x1 x2 := by
  funext i
  obtain ⟨b, k, s, rfl⟩ : ∃ (b : Fin 32) (k : Fin 8192) (s : Fin 10), i = ix3 b k s :=
    ⟨i 0, i 1, i 2, eq_ix3 i⟩
  rw [dist_ix3]
  unfold distAt distOf
  show Ideal.div (-(val_main_v7 (F := Ideal) x0 x1 x2 (ix3 b k s)))
      ((Ideal.sqrt (val_main_v10 (F := Ideal) x0 x2 (ix3 b k s)) * val_main_v17 (F := Ideal) x1 x2 (ix3 b k s))
        * val_main_v19 (F := Ideal) (ix3 b k s)) = _
  rw [v7_apply, v10_apply, normQBcast_apply, scale_apply]

end Cert.ReferenceIdeal.RefSide

end
-- ==== Proof.lean ====
/-
  The certificate of a multi-perspective cosine-distance kernel against its jnp reference, over the
  extended reals.

  Inputs p, q : [32, 10, 4096] and W : [8192, 4096]. With q_last = q[:, 9, :], both programs compute
      dist[b, k, s] = (-dot) / ((sqrt nP * sqrt nQ) * 4096),
      dot = sum_d (p[b,s,d] * q_last[b,d]) * W[k,d]^2,
      nP  = sum_d  p[b,s,d]^2 * W[k,d]^2,      nQ = sum_d q_last[b,d]^2 * W[k,d]^2,
  and return the [32, 8192, 10] array dist re-read row-major as [32, 10, 8192].

  The reference takes three contractions against W * W. The kernel stacks the three left operands into one
  [672, 4096] array, multiplies it once against the squared rows of W, sixteen column blocks of 512 at a
  time, and cuts the [672, 8192] product back into the three sums. At the ideal instance a change of float
  format is the identity, a product into a zero accumulator is the plain sum, and the only law between the
  two sides is commutativity of the product inside two of the sums; no input needs to be finite.

  Frames: the kernel's program is the operations that build the stacked operand, the one region, and the
  operations that finish the distances; its run is stated once at any float instance (Proof/Around, Body,
  Run) and read at the word-level and at the ideal instance. The reference has no region; its frame is its
  run with the result dropped. No rewrite was applied when the idealized kernel was printed, so the
  idealization claim is the trivial one.
-/
import proofs.«128800_j48481590837593_1_alg».proof.Defs
import proofs.«128800_j48481590837593_1_alg».proof.Proof.Gen.Kernel
import proofs.«128800_j48481590837593_1_alg».proof.Proof.Gen.KernelIdeal
import proofs.«128800_j48481590837593_1_alg».proof.Proof.Gen.ReferenceIdeal
import proofs.«128800_j48481590837593_1_alg».proof.Proof.Gen.Pre_finite_inputs
import proofs.«128800_j48481590837593_1_alg».proof.Proof.BitsRun
import proofs.«128800_j48481590837593_1_alg».proof.Proof.KernelDist
import proofs.«128800_j48481590837593_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernel_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result at the row-major re-reading of the same distance array of the
    arguments: the kernel's by its region's product and the operations around it, the reference's by its run. -/
theorem algebraic : Cert.algebraic_KernelIdeal_ReferenceIdeal := by
  intro m ρ m' ρ' _ hagree
  refine ⟨fun c => shapeCast Cert.KernelIdeal.S32x10x8192
      (Cert.Spec.dist (Cert.KernelIdeal.Region.pArr m c) (Cert.KernelIdeal.Region.qArr m c) (Cert.KernelIdeal.Region.wArr m c))
      Cert.KernelIdeal.Gen.shapeCasts_S32x8192x10_S32x10x8192,
    Cert.KernelIdeal.Region.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  unfold Cert.ReferenceIdeal.Read.val_main_v22
  rw [Cert.ReferenceIdeal.RefSide.reference_dist, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
